-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20000 : Shape := ⟨2, ![128, 20000]⟩
abbrev S2x640000 : Shape := ⟨2, ![2, 640000]⟩
abbrev S640000 : Shape := ⟨1, ![640000]⟩
abbrev S30x20000 : Shape := ⟨2, ![30, 20000]⟩
abbrev S30 : Shape := ⟨1, ![30]⟩
abbrev S_ : Shape := ⟨0, ![]⟩

class Facts : Prop where
  bcast_S_S128x20000 : S_.BroadcastsInDim S128x20000 (![] : Fin 0 → Fin S128x20000.rank)
  reducesTo_S128x20000_S_d0_1 : S128x20000.ReducesTo [0, 1] S_
  h_S_ : 0 < S_.numel
  bcast_S_S640000 : S_.BroadcastsInDim S640000 (![] : Fin 0 → Fin S640000.rank)
  reducesTo_S640000_S_d0 : S640000.ReducesTo [0] S_
  bcast_S_S30x20000 : S_.BroadcastsInDim S30x20000 (![] : Fin 0 → Fin S30x20000.rank)
  reducesTo_S30x20000_S_d0_1 : S30x20000.ReducesTo [0, 1] S_
  bcast_S_S30 : S_.BroadcastsInDim S30 (![] : Fin 0 → Fin S30.rank)
  reducesTo_S30_S_d0 : S30.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_c_6 : IVec S_ 32 := constantI S_ 32 0#32
  let main_v19 : IVec S2x640000 32 := broadcastInDim S2x640000 ![] bcast_S_S2x640000 main_c_6
  let main_v20 : IVec S2x640000 1 := cmpi .sge main_arg1 main_v19
  let main_c_7 : IVec S_ 1 := constantI S_ 1 1#1
  let main_v21 : IVec S_ 1 := (fun x v => Host.reduce IntOp.andi x v reducesTo_S2x640000_S_d0_1 h_S_) main_v20 main_c_7
  let main_v22 : IVec S_ 1 := andi main_v18 main_v21
  let main_c_8 : IVec S_ 32 := constantI S_ 32 20000#32
  let main_v23 : IVec S2x640000 32 := broadcastInDim S2x640000 ![] bcast_S_S2x640000 main_c_8
  let main_v24 : IVec S2x640000 1 := cmpi .slt main_arg1 main_v23
  let main_c_9 : IVec S_ 1 := constantI S_ 1 1#1
  let main_v25 : IVec S_ 1 := (fun x v => Host.reduce IntOp.andi x v reducesTo_S2x640000_S_d0_1 h_S_) main_v24 main_c_9
  let main_v26 : IVec S_ 1 := andi main_v22 main_v25
  main_v26

def fn {F : FTy → Type} [FloatOps F] (main_arg0 : FVec F S128x20000 .f32) (main_arg1 : IVec S2x640000 32) (main_arg2 : FVec F S640000 .f32) (main_arg3 : FVec F S30x20000 .f32) (main_arg4 : FVec F S30 .f32) : IVec S_ 1 :=
  let main_v0 : FVec F S128x20000 .f32 := Host.absf main_arg0
  let main_cst : FVec F S_ .f32 := constant S_ .f32 0x7F800000#32
  let main_v1 : FVec F S128x20000 .f32 := broadcastInDim S128x20000 ![] bcast_S_S128x20000 main_cst
  let main_v2 : IVec S128x20000 1 := cmpf .olt main_v0 main_v1
  let main_c : IVec S_ 1 := constantI S_ 1 1#1
  let main_v3 : IVec S_ 1 := (fun x v => Host.reduce IntOp.andi x v reducesTo_S128x20000_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S30x20000 .f32 := Host.absf main_arg3
  let main_cst_2 : FVec F S_ .f32 := constant S_ .f32 0x7F800000#32
  let main_v10 : FVec F S30x20000 .f32 := broadcastInDim S30x20000 ![] bcast_S_S30x20000 main_cst_2
  let main_v11 : IVec S30x20000 1 := cmpf .olt main_v9 main_v10
  let main_c_3 : IVec S_ 1 := constantI S_ 1 1#1
  let main_v12 : IVec S_ 1 := (fun x v => Host.reduce IntOp.andi x v reducesTo_S30x20000_S_d0_1 h_S_) main_v11 main_c_3
  let main_v13 : IVec S_ 1 := andi main_v8 main_v12
  let main_v14 : FVec F S30 .f32 := Host.absf main_arg4
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg1 main_v13 main_v16
-- ==== Kernel.lean ====
abbrev S128x20000 : Shape := ⟨2, ![128, 20000]⟩
abbrev S2x640000 : Shape := ⟨2, ![2, 640000]⟩
abbrev S640000 : Shape := ⟨1, ![640000]⟩
abbrev S30x20000 : Shape := ⟨2, ![30, 20000]⟩
abbrev S30 : Shape := ⟨1, ![30]⟩
abbrev S1x640000 : Shape := ⟨2, ![1, 640000]⟩
abbrev S20000 : Shape := ⟨1, ![20000]⟩
abbrev S660000 : Shape := ⟨1, ![660000]⟩
abbrev S_ : Shape := ⟨0, ![]⟩
abbrev S660000x1 : Shape := ⟨2, ![660000, 1]⟩
abbrev S20000x30 : Shape := ⟨2, ![20000, 30]⟩
abbrev S660000x30 : Shape := ⟨2, ![660000, 30]⟩
abbrev S20480x128 : Shape := ⟨2, ![20480, 128]⟩
abbrev S128x20480 : Shape := ⟨2, ![128, 20480]⟩
abbrev S128 : Shape := ⟨1, ![128]⟩
abbrev S1x128 : Shape := ⟨2, ![1, 128]⟩
abbrev S128x128 : Shape := ⟨2, ![128, 128]⟩
abbrev S128x2048 : Shape := ⟨2, ![128, 2048]⟩
abbrev S2048x128 : Shape := ⟨2, ![2048, 128]⟩
abbrev S128x30 : Shape := ⟨2, ![128, 30]⟩
abbrev S128x1 : Shape := ⟨2, ![128, 1]⟩

abbrev nBuf : Space → Nat
  | .hbm => 92
  | .vmem => 7
  | .smem => 0
  | _ => 0

abbrev bufTy : (tb : Table) → Fin (tcTables nBuf tb) → BufTy
  | .hbm, ⟨0, _⟩ => ⟨S128x20000, .f32⟩
  | .hbm, ⟨1, _⟩ => ⟨S2x640000, .i32⟩
  | .hbm, ⟨2, _⟩ => ⟨S640000, .f32⟩
  | .hbm, ⟨3, _⟩ => ⟨S30x20000, .f32⟩
  | .hbm, ⟨4, _⟩ => ⟨S30, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S20000, .i32⟩
  | .hbm, ⟨10, _⟩ => ⟨S660000, .i32⟩
  | .hbm, ⟨11, _⟩ => ⟨S660000, .i32⟩
  | .hbm, ⟨12, _⟩ => ⟨S_, .f32⟩
  | .hbm, ⟨13, _⟩ => ⟨S20000, .f32⟩
  | .hbm, ⟨14, _⟩ => ⟨S660000, .f32⟩
  | .hbm, ⟨15, _⟩ => ⟨S_, .f32⟩
  | .hbm, ⟨16, _⟩ => ⟨S20000, .f32⟩
  | .hbm, ⟨17, _⟩ => ⟨S660000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S660000, .i32⟩
  | .hbm, ⟨29, _⟩ => ⟨S660000, .i1⟩
  | .hbm, ⟨30, _⟩ => ⟨S_, .i32⟩
  | .hbm, ⟨31, _⟩ => ⟨S660000, .i32⟩
  | .hbm, ⟨32, _⟩ => ⟨S660000, .i32⟩
  | .hbm, ⟨33, _⟩ => ⟨S660000, .i32⟩
  | .hbm, ⟨34, _⟩ => ⟨S660000x1, .i32⟩
  | .hbm, ⟨35, _⟩ => ⟨S660000, .f32⟩
  | .hbm, ⟨36, _⟩ => ⟨S660000, .f32⟩
  | .hbm, ⟨37, _⟩ => ⟨S_, .i32⟩
  | .hbm, ⟨38, _⟩ => ⟨S660000, .i32⟩
  | .hbm, ⟨39, _⟩ => ⟨S660000, .i1⟩
  | .hbm, ⟨40, _⟩ => ⟨S_, .i32⟩
  | .hbm, ⟨41, _⟩ => ⟨S660000, .i32⟩
  | .hbm, ⟨42, _⟩ => ⟨S660000, .i32⟩
  | .hbm, ⟨43, _⟩ => ⟨S660000, .i32⟩
  | .hbm, ⟨44, _⟩ => ⟨S660000x1, .i32⟩
  | .hbm, ⟨45, _⟩ => ⟨S660000, .f32⟩
  | .hbm, ⟨46, _⟩ => ⟨S660000, .f32⟩
  | .hbm, ⟨47, _⟩ => ⟨S20000x30, .f32⟩
  | .hbm, ⟨48, _⟩ => ⟨S_, .i32⟩
  | .hbm, ⟨49, _⟩ => ⟨S660000, .i32⟩
  | .hbm, ⟨50, _⟩ => ⟨S660000, .i1⟩
  | .hbm, ⟨51, _⟩ => ⟨S_, .i32⟩
  | .hbm, ⟨52, _⟩ => ⟨S660000, .i32⟩
  | .hbm, ⟨53, _⟩ => ⟨S660000, .i32⟩
  | .hbm, ⟨54, _⟩ => ⟨S660000, .i32⟩
  | .hbm, ⟨55, _⟩ => ⟨S660000x1, .i32⟩
  | .hbm, ⟨56, _⟩ => ⟨S660000x30, .f32⟩
  | .hbm, ⟨57, _⟩ => ⟨S660000x1, .f32⟩
  | .hbm, ⟨58, _⟩ => ⟨S660000x30, .f32⟩
  | .hbm, ⟨59, _⟩ => ⟨S660000x30, .f32⟩
  | .hbm, ⟨60, _⟩ => ⟨S_, .f32⟩
  | .hbm, ⟨61, _⟩ => ⟨S20000x30, .f32⟩
  | .hbm, ⟨62, _⟩ => ⟨S660000x1, .i32⟩
  | .hbm, ⟨63, _⟩ => ⟨S20000x30, .f32⟩
  | .hbm, ⟨64, _⟩ => ⟨S_, .i32⟩
  | .hbm, ⟨65, _⟩ => ⟨S_, .f32⟩
  | .hbm, ⟨66, _⟩ => ⟨S20480x128, .f32⟩
  | .hbm, ⟨67, _⟩ => ⟨S20480x128, .bf16⟩
  | .hbm, ⟨68, _⟩ => ⟨S_, .i32⟩
  | .hbm, ⟨69, _⟩ => ⟨S_, .f32⟩
  | .hbm, ⟨70, _⟩ => ⟨S128x20480, .f32⟩
  | .hbm, ⟨71, _⟩ => ⟨S128x20480, .bf16⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S128x128, .f32⟩
  | .hbm, ⟨77, _⟩ => ⟨S128x30, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128x1, .f32⟩
  | .hbm, ⟨84, _⟩ => ⟨S128x30, .f32⟩
  | .hbm, ⟨85, _⟩ => ⟨S128x30, .f32⟩
  | .hbm, ⟨86, _⟩ => ⟨S128x30, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S128x30, .f32⟩
  | .hbm, ⟨91, _⟩ => ⟨S128x30, .f32⟩
  | .local _ .vmem, ⟨0, _⟩ => ⟨S128x2048, .bf16⟩
  | .local _ .vmem, ⟨1, _⟩ => ⟨S128x2048, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S128x128, .f32⟩
  | .local _ .vmem, ⟨6, _⟩ => ⟨S128x128, .f32⟩
  | _, _ => ⟨S128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_call3_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v13 : BitVec 1 := Scalar.cmpi .eq arg0 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S20000_S660000_d0 : Shape.Concatenates [S640000, S20000] S660000 0
  bcast_S_S20000 : S_.BroadcastsInDim S20000 (![] : Fin 0 → Fin S20000.rank)
  bcast_S660000_S660000x1_0 : S660000.BroadcastsInDim S660000x1 (![0] : Fin 1 → Fin S660000x1.rank)
  bcast_S_S660000 : S_.BroadcastsInDim S660000 (![] : Fin 0 → Fin S660000.rank)
  transposes_S30x20000_S20000x30_1_0 : S30x20000.Transposes [1, 0] S20000x30
  bcast_S660000x1_S660000x30_0_1 : S660000x1.BroadcastsInDim S660000x30 (![0, 1] : Fin 2 → Fin S660000x30.rank)
  bcast_S_S20000x30 : S_.BroadcastsInDim S20000x30 (![] : Fin 0 → Fin S20000x30.rank)
  pads_S20000x30_S20480x128_04800_0980 : S20000x30.Pads (![0, 0] : Fin 2 → Nat) ![480, 98] ![0, 0] S20480x128
  h_S_ : 0 < S_.numel
  bitsLt_bf16_f32 : FTy.bits .bf16 < FTy.bits .f32
  pads_S128x20000_S128x20480_000_04800 : S128x20000.Pads (![0, 0] : Fin 2 → Nat) ![0, 480] ![0, 0] S128x20480
  pads_S30_S128_0980 : S30.Pads (![0] : Fin 1 → Nat) ![98] ![0] S128
  bcast_S128_S1x128_1 : S128.BroadcastsInDim S1x128 (![1] : Fin 1 → Fin S1x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  slices_S128x128_S128x30_0_0 : S128x128.Slices ![0, 0] S128x30
  reducesTo_S128x30_S128_d1 : S128x30.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x30_0_1 : S128x1.BroadcastsInDim S128x30 (![0, 1] : Fin 2 → Fin S128x30.rank)
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x30_S660000x1_S660000x30_1_0_n_n_0_1_130_wf : GatherDims.WF S20000x30 S660000x1 S660000x30 [1] [0] [] [0] [] 1 ![1, 30]
  scatter_S20000x30_S660000x1_S660000x30_1_0_0_1_wf : ScatterDims.WF S20000x30 S660000x1 S660000x30 [1] [0] [0] 1
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x20480.size a
  hwx0_0 : ∀ i : grid0.Coords, EltTy.bits .bf16 = 32 ∨ (Rect.block (s := S128x20480) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S20480x128.size a
  hwx0_1 : ∀ i : grid0.Coords, EltTy.bits .bf16 = 32 ∨ (Rect.block (s := S20480x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)

variable [Facts₀]

def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x30_S660000x1_S660000x30_1_0_n_n_0_1_130 : GatherDims S20000x30 S660000x1 S660000x30 where
  offsetDims := [1]
  collapsedSliceDims := [0]
  operandBatchingDims := []
  startIndicesBatchingDims := []
  startIndexMap := [0]
  indexVectorDim := 1
  sliceSizes := ![1, 30]
  wf := gather_S20000x30_S660000x1_S660000x30_1_0_n_n_0_1_130_wf
def scatter_S20000x30_S660000x1_S660000x30_1_0_0_1 : ScatterDims S20000x30 S660000x1 S660000x30 where
  updateWindowDims := [1]
  insertedWindowDims := [0]
  scatterDimsToOperandDims := [0]
  indexVectorDim := 1
  wf := scatter_S20000x30_S660000x1_S660000x30_1_0_0_1_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_v49) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x20000 : Shape := ⟨2, ![128, 20000]⟩
abbrev S2x640000 : Shape := ⟨2, ![2, 640000]⟩
abbrev S640000 : Shape := ⟨1, ![640000]⟩
abbrev S30x20000 : Shape := ⟨2, ![30, 20000]⟩
abbrev S30 : Shape := ⟨1, ![30]⟩
abbrev S1x640000 : Shape := ⟨2, ![1, 640000]⟩
abbrev S20000 : Shape := ⟨1, ![20000]⟩
abbrev S660000 : Shape := ⟨1, ![660000]⟩
abbrev S_ : Shape := ⟨0, ![]⟩
abbrev S660000x1 : Shape := ⟨2, ![660000, 1]⟩
abbrev S128x660000 : Shape := ⟨2, ![128, 660000]⟩
abbrev S1x660000 : Shape := ⟨2, ![1, 660000]⟩
abbrev S660000x128 : Shape := ⟨2, ![660000, 128]⟩
abbrev S20000x128 : Shape := ⟨2, ![20000, 128]⟩
abbrev S20000x30 : Shape := ⟨2, ![20000, 30]⟩
abbrev S128x30 : Shape := ⟨2, ![128, 30]⟩
abbrev S1x30 : Shape := ⟨2, ![1, 30]⟩
abbrev S128 : Shape := ⟨1, ![128]⟩
abbrev S128x1 : Shape := ⟨2, ![128, 1]⟩

abbrev nBuf : Space → Nat
  | .hbm => 84
  | .vmem => 0
  | .smem => 0
  | _ => 0

abbrev bufTy : (tb : Table) → Fin (tcTables nBuf tb) → BufTy
  | .hbm, ⟨0, _⟩ => ⟨S128x20000, .f32⟩
  | .hbm, ⟨1, _⟩ => ⟨S2x640000, .i32⟩
  | .hbm, ⟨2, _⟩ => ⟨S640000, .f32⟩
  | .hbm, ⟨3, _⟩ => ⟨S30x20000, .f32⟩
  | .hbm, ⟨4, _⟩ => ⟨S30, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S20000, .i32⟩
  | .hbm, ⟨10, _⟩ => ⟨S660000, .i32⟩
  | .hbm, ⟨11, _⟩ => ⟨S660000, .i32⟩
  | .hbm, ⟨12, _⟩ => ⟨S_, .f32⟩
  | .hbm, ⟨13, _⟩ => ⟨S20000, .f32⟩
  | .hbm, ⟨14, _⟩ => ⟨S660000, .f32⟩
  | .hbm, ⟨15, _⟩ => ⟨S_, .f32⟩
  | .hbm, ⟨16, _⟩ => ⟨S20000, .f32⟩
  | .hbm, ⟨17, _⟩ => ⟨S660000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S660000, .i32⟩
  | .hbm, ⟨29, _⟩ => ⟨S660000, .i1⟩
  | .hbm, ⟨30, _⟩ => ⟨S_, .i32⟩
  | .hbm, ⟨31, _⟩ => ⟨S660000, .i32⟩
  | .hbm, ⟨32, _⟩ => ⟨S660000, .i32⟩
  | .hbm, ⟨33, _⟩ => ⟨S660000, .i32⟩
  | .hbm, ⟨34, _⟩ => ⟨S660000x1, .i32⟩
  | .hbm, ⟨35, _⟩ => ⟨S660000, .f32⟩
  | .hbm, ⟨36, _⟩ => ⟨S660000, .f32⟩
  | .hbm, ⟨37, _⟩ => ⟨S_, .i32⟩
  | .hbm, ⟨38, _⟩ => ⟨S660000, .i32⟩
  | .hbm, ⟨39, _⟩ => ⟨S660000, .i1⟩
  | .hbm, ⟨40, _⟩ => ⟨S_, .i32⟩
  | .hbm, ⟨41, _⟩ => ⟨S660000, .i32⟩
  | .hbm, ⟨42, _⟩ => ⟨S660000, .i32⟩
  | .hbm, ⟨43, _⟩ => ⟨S660000, .i32⟩
  | .hbm, ⟨44, _⟩ => ⟨S660000x1, .i32⟩
  | .hbm, ⟨45, _⟩ => ⟨S660000, .f32⟩
  | .hbm, ⟨46, _⟩ => ⟨S660000, .f32⟩
  | .hbm, ⟨47, _⟩ => ⟨S_, .i32⟩
  | .hbm, ⟨48, _⟩ => ⟨S660000, .i32⟩
  | .hbm, ⟨49, _⟩ => ⟨S660000, .i1⟩
  | .hbm, ⟨50, _⟩ => ⟨S_, .i32⟩
  | .hbm, ⟨51, _⟩ => ⟨S660000, .i32⟩
  | .hbm, ⟨52, _⟩ => ⟨S660000, .i32⟩
  | .hbm, ⟨53, _⟩ => ⟨S660000, .i32⟩
  | .hbm, ⟨54, _⟩ => ⟨S660000x1, .i32⟩
  | .hbm, ⟨55, _⟩ => ⟨S128x660000, .f32⟩
  | .hbm, ⟨56, _⟩ => ⟨S1x660000, .f32⟩
  | .hbm, ⟨57, _⟩ => ⟨S128x660000, .f32⟩
  | .hbm, ⟨58, _⟩ => ⟨S128x660000, .f32⟩
  | .hbm, ⟨59, _⟩ => ⟨S660000x128, .f32⟩
  | .hbm, ⟨60, _⟩ => ⟨S_, .f32⟩
  | .hbm, ⟨61, _⟩ => ⟨S20000x128, .f32⟩
  | .hbm, ⟨62, _⟩ => ⟨S660000x1, .i32⟩
  | .hbm, ⟨63, _⟩ => ⟨S20000x128, .f32⟩
  | .hbm, ⟨64, _⟩ => ⟨S128x20000, .f32⟩
  | .hbm, ⟨65, _⟩ => ⟨S20000x30, .f32⟩
  | .hbm, ⟨66, _⟩ => ⟨S128x30, .f32⟩
  | .hbm, ⟨67, _⟩ => ⟨S1x30, .f32⟩
  | .hbm, ⟨68, _⟩ => ⟨S128x30, .f32⟩
  | .hbm, ⟨69, _⟩ => ⟨S128x30, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128x1, .f32⟩
  | .hbm, ⟨76, _⟩ => ⟨S128x30, .f32⟩
  | .hbm, ⟨77, _⟩ => ⟨S128x30, .f32⟩
  | .hbm, ⟨78, _⟩ => ⟨S128x30, .f32⟩
  | .hbm, ⟨79, _⟩ => ⟨S_, .f32⟩
  | .hbm, ⟨80, _⟩ => ⟨S128, .f32⟩
  | .hbm, ⟨81, _⟩ => ⟨S128x1, .f32⟩
  | .hbm, ⟨82, _⟩ => ⟨S128x30, .f32⟩
  | .hbm, ⟨83, _⟩ => ⟨S128x30, .f32⟩
  | _, _ => ⟨S128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S20000_S660000_d0 : Shape.Concatenates [S640000, S20000] S660000 0
  bcast_S_S20000 : S_.BroadcastsInDim S20000 (![] : Fin 0 → Fin S20000.rank)
  bcast_S660000_S660000x1_0 : S660000.BroadcastsInDim S660000x1 (![0] : Fin 1 → Fin S660000x1.rank)
  bcast_S_S660000 : S_.BroadcastsInDim S660000 (![] : Fin 0 → Fin S660000.rank)
  bcast_S660000_S1x660000_1 : S660000.BroadcastsInDim S1x660000 (![1] : Fin 1 → Fin S1x660000.rank)
  bcast_S1x660000_S128x660000_0_1 : S1x660000.BroadcastsInDim S128x660000 (![0, 1] : Fin 2 → Fin S128x660000.rank)
  transposes_S128x660000_S660000x128_1_0 : S128x660000.Transposes [1, 0] S660000x128
  bcast_S_S20000x128 : S_.BroadcastsInDim S20000x128 (![] : Fin 0 → Fin S20000x128.rank)
  transposes_S20000x128_S128x20000_1_0 : S20000x128.Transposes [1, 0] S128x20000
  transposes_S30x20000_S20000x30_1_0 : S30x20000.Transposes [1, 0] S20000x30
  bcast_S30_S1x30_1 : S30.BroadcastsInDim S1x30 (![1] : Fin 1 → Fin S1x30.rank)
  bcast_S1x30_S128x30_0_1 : S1x30.BroadcastsInDim S128x30 (![0, 1] : Fin 2 → Fin S128x30.rank)
  reducesTo_S128x30_S128_d1 : S128x30.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x30_0_1 : S128x1.BroadcastsInDim S128x30 (![0, 1] : Fin 2 → Fin S128x30.rank)
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S128x20000_S660000x1_S128x660000_0_1_n_n_1_1_1281_wf : GatherDims.WF S128x20000 S660000x1 S128x660000 [0] [1] [] [1] [] 1 ![128, 1]
  scatter_S20000x128_S660000x1_S660000x128_1_0_0_1_wf : ScatterDims.WF S20000x128 S660000x1 S660000x128 [1] [0] [0] 1
  dot_S128x20000_S20000x30_S128x30_1_0_0_1_n_n_wf : DotDims.WF S128x20000 S20000x30 S128x30 [1] [0] [0] [1] [] []

variable [Facts₀]

def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S128x20000_S660000x1_S128x660000_0_1_n_n_1_1_1281 : GatherDims S128x20000 S660000x1 S128x660000 where
  offsetDims := [0]
  collapsedSliceDims := [1]
  operandBatchingDims := []
  startIndicesBatchingDims := []
  startIndexMap := [1]
  indexVectorDim := 1
  sliceSizes := ![128, 1]
  wf := gather_S128x20000_S660000x1_S128x660000_0_1_n_n_1_1_1281_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def dot_S128x20000_S20000x30_S128x30_1_0_0_1_n_n : DotDims S128x20000 S20000x30 S128x30 where
  lhsContracting := [1]
  rhsContracting := [0]
  lhsNonContracting := [0]
  rhsNonContracting := [1]
  lhsBatch := []
  rhsBatch := []
  wf := dot_S128x20000_S20000x30_S128x30_1_0_0_1_n_n_wf

class Facts : Prop extends Facts₀ where

variable [Facts]
-- ==== Proof.Spec.lean ====
/-
  The logits of the diffusion classifier, written twice, index by index, over the extended reals.

  The graph has 20000 nodes and 660000 weighted arcs: the 640000 input arcs followed by one self loop of weight one
  per node. Arc `e` goes from node `sw e` to node `dw e` (32-bit words read signed); its normalized weight is
  `wn e = dinv (src e) * wf e * dinv (dst e)`, where `deg n` is the sum of the weights of the arcs into `n` and
  `dinv n = 1 / sqrt (deg n)` where `deg n` is positive and `0` elsewhere.

  * `logitsRef` diffuses the features first: `diffused b n = ∑ arcs e into n, x b (src e) * wn e`, and then applies the
    dense layer: `∑ n, diffused b n * fw c n + fb c`.
  * `logitsKer` folds the graph into the dense layer's weights first: `W2 s c = ∑ arcs e out of s, fw c (dst e) * wn e`,
    and then `∑ s, x b s * W2 s c + fb c`.

  Both are `∑ e, x b (src e) * wn e * fw c (dst e) + fb c` when every number is real and every node word is a node.
  A gather reads its table at the word brought into range (`gix`); a scatter-add drops an arc whose word is no node.
-/
import Idealize.ShloMosaic.PureOps.Ideal
import Idealize.ShloMosaic.Lib.ValueIdx
import Mathlib.Data.EReal.Operations
import Mathlib.Algebra.BigOperators.Group.Finset.Basic

noncomputable section

open scoped BigOperators

namespace Cert.Diffuse

open Idealize.ShloMosaic Idealize.ShloMosaic.ValueIdx

/-- The source word of arc `e`: row 0 of the arc table for an input arc, the node's own number for a self loop. -/
def srcw (ei : IVec ⟨2, ![2, 640000]⟩ 32) (e : Fin 660000) : BitVec 32 :=
  if h : e.val < 640000 then ei (ix2 (0 : Fin 2) (⟨e.val, h⟩ : Fin 640000)) else BitVec.ofNat 32 (e.val - 640000)

/-- The target word of arc `e`: row 1 of the arc table for an input arc, the node's own number for a self loop. -/
def dstw (ei : IVec ⟨2, ![2, 640000]⟩ 32) (e : Fin 660000) : BitVec 32 :=
  if h : e.val < 640000 then ei (ix2 (1 : Fin 2) (⟨e.val, h⟩ : Fin 640000)) else BitVec.ofNat 32 (e.val - 640000)

/-- The weight of arc `e`: the input weight for an input arc, one for a self loop. -/
def wfv (ew : FVec Ideal ⟨1, ![640000]⟩ .f32) (e : Fin 660000) : EReal :=
  if h : e.val < 640000 then ew (ix1 (⟨e.val, h⟩ : Fin 640000)) else Ideal.ofBits .f32 0x3F800000#32

/-- A word as an index into an axis of 20000: a negative word counts from the end. -/
def normw (w : BitVec 32) : BitVec 32 :=
  Scalar.select (IntOp.cmpi .slt w 0#32) (IntOp.addi w 20000#32) w

/-- The node a gather reads for the word `w`: the word brought into range, clamped into `[0, 19999]`. -/
def gix (w : BitVec 32) : Fin 20000 := ⟨min (normw w).toInt.toNat (20000 - 1), by omega⟩

/-- The degree of node `n`: the sum of the weights of the arcs whose target word is `n`. -/
def deg (dw : Fin 660000 → BitVec 32) (wf : Fin 660000 → EReal) (n : Fin 20000) : EReal :=
  ∑ e : Fin 660000, if (dw e).toInt = (n.val : Int) then wf e else 0

/-- The inverse square root of a degree where it is positive, zero elsewhere. -/
def dinv (d : Fin 20000 → EReal) (n : Fin 20000) : EReal :=
  if 0 < d n then Ideal.rsqrt (d n) else 0

/-- The normalized weight of arc `e`. -/
def wn (sw dw : Fin 660000 → BitVec 32) (wf : Fin 660000 → EReal) (e : Fin 660000) : EReal :=
  dinv (deg dw wf) (gix (sw e)) * wf e * dinv (deg dw wf) (gix (dw e))

/-- Feature row `b` diffused onto node `n`: over the arcs into `n`, the feature at the arc's source times its weight. -/
def diffused (x : FVec Ideal ⟨2, ![128, 20000]⟩ .f32) (sw dw : Fin 660000 → BitVec 32) (w : Fin 660000 → EReal)
    (b : Fin 128) (n : Fin 20000) : EReal :=
  ∑ e : Fin 660000, if (dw e).toInt = (n.val : Int) then x (ix2 b (gix (sw e))) * w e else 0

/-- The logits, diffusing first. -/
def logitsRef (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal)
    (b : Fin 128) (c : Fin 30) : EReal :=
  (∑ n : Fin 20000, diffused x sw dw w b n * fw (ix2 c n)) + fb (ix1 c)

/-- The dense layer's weights with the graph folded in: over the arcs out of `s`, the weight at the arc's target times
    the arc's weight. -/
def W2 (fw : FVec Ideal ⟨2, ![30, 20000]⟩ .f32) (sw dw : Fin 660000 → BitVec 32) (w : Fin 660000 → EReal)
    (s : Fin 20000) (c : Fin 30) : EReal :=
  ∑ e : Fin 660000, if (sw e).toInt = (s.val : Int) then fw (ix2 c (gix (dw e))) * w e else 0

/-- The logits, folding the graph into the weights first. -/
def logitsKer (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal)
    (b : Fin 128) (c : Fin 30) : EReal :=
  (∑ s : Fin 20000, x (ix2 b s) * W2 fw sw dw w s c) + fb (ix1 c)

/-- The two as arrays over `[128, 30]`. -/
def logitsRefArr (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal) :
    FVec Ideal ⟨2, ![128, 30]⟩ .f32 :=
  fun i => logitsRef x fw fb sw dw w (i 0) (i 1)

def logitsKerArr (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal) :
    FVec Ideal ⟨2, ![128, 30]⟩ .f32 :=
  fun i => logitsKer x fw fb sw dw w (i 0) (i 1)

/-- The row-wise softmax both programs end with, as one function of the logits: the row maximum taken from `-∞`,
    the exponentials of the differences, their row sum, the quotient. -/
def softmaxTail (l : FVec Ideal ⟨2, ![128, 30]⟩ .f32) : FVec Ideal ⟨2, ![128, 30]⟩ .f32 :=
  let ninf : FVec Ideal ⟨0, ![]⟩ .f32 := constant (F := Ideal) ⟨0, ![]⟩ .f32 0xFF800000#32
  let zero : FVec Ideal ⟨0, ![]⟩ .f32 := constant (F := Ideal) ⟨0, ![]⟩ .f32 0x00000000#32
  let mx : FVec Ideal ⟨1, ![128]⟩ .f32 :=
    maximumf (broadcastInDim ⟨1, ![128]⟩ ![] (by decide : (⟨0, ![]⟩ : Shape).BroadcastsInDim ⟨1, ![128]⟩ (![] : Fin 0 → Fin 1)) ninf)
      (Host.reduce FloatOps.maximumf l ninf (by decide : (⟨2, ![128, 30]⟩ : Shape).ReducesTo [1] ⟨1, ![128]⟩) (by decide))
  let ex : FVec Ideal ⟨2, ![128, 30]⟩ .f32 :=
    Host.exp (subf l (broadcastInDim ⟨2, ![128, 30]⟩ ![0, 1] (by decide : (⟨2, ![128, 1]⟩ : Shape).BroadcastsInDim ⟨2, ![128, 30]⟩ (![0, 1] : Fin 2 → Fin 2))
      (broadcastInDim ⟨2, ![128, 1]⟩ ![0] (by decide : (⟨1, ![128]⟩ : Shape).BroadcastsInDim ⟨2, ![128, 1]⟩ (![0] : Fin 1 → Fin 2)) mx)))
  Host.divf ex (broadcastInDim ⟨2, ![128, 30]⟩ ![0, 1] (by decide : (⟨2, ![128, 1]⟩ : Shape).BroadcastsInDim ⟨2, ![128, 30]⟩ (![0, 1] : Fin 2 → Fin 2))
    (broadcastInDim ⟨2, ![128, 1]⟩ ![0] (by decide : (⟨1, ![128]⟩ : Shape).BroadcastsInDim ⟨2, ![128, 1]⟩ (![0] : Fin 1 → Fin 2))
      (Host.reduceAdd ex zero (by decide : (⟨2, ![128, 30]⟩ : Shape).ReducesTo [1] ⟨1, ![128]⟩) (by decide))))

end Cert.Diffuse

end
-- ==== Proof.Algebra.lean ====
/-
  The two ways of writing the logits agree when every number is real and every node word is a node: both are the sum
  over the arcs `e` of `x b (src e) * wn e * fw c (dst e)`, plus the bias.
-/
import proofs.«404574_j14869176779094_2_alg».proof.Proof.Spec
import Mathlib.Algebra.BigOperators.Ring.Finset
import Mathlib.Algebra.BigOperators.Group.Finset.Piecewise
import Mathlib.Algebra.BigOperators.Group.Finset.Sigma

noncomputable section

open scoped BigOperators

namespace Cert.Diffuse

open Idealize.ShloMosaic Idealize.ShloMosaic.ValueIdx

/-- Over the reals: summing over the sources of the arcs and summing over their targets both give the sum over the
    arcs of `x (S e) * w e * f (D e)`. -/
private theorem real_swap {E N : Type} [Fintype E] [Fintype N] [DecidableEq N] (S D : E → N) (x f : N → ℝ)
    (w : E → ℝ) :
    ∑ s, x s * (∑ e, if S e = s then f (D e) * w e else 0)
      = ∑ n, (∑ e, if D e = n then x (S e) * w e else 0) * f n := by
  have h1 : ∀ s, x s * (∑ e, if S e = s then f (D e) * w e else 0)
      = ∑ e, if S e = s then x (S e) * w e * f (D e) else 0 := by
    intro s
    rw [Finset.mul_sum]
    refine Finset.sum_congr rfl fun e _ => ?_
    by_cases h : S e = s
    · rw [if_pos h, if_pos h, h, mul_comm (f (D e)) (w e)]
      exact (mul_assoc _ _ _).symm
    · rw [if_neg h, if_neg h]
      exact mul_zero _
  have h2 : ∀ n, (∑ e, if D e = n then x (S e) * w e else 0) * f n
      = ∑ e, if D e = n then x (S e) * w e * f (D e) else 0 := by
    intro n
    rw [Finset.sum_mul]
    refine Finset.sum_congr rfl fun e _ => ?_
    by_cases h : D e = n
    · rw [if_pos h, if_pos h, h]
    · rw [if_neg h, if_neg h]
      exact zero_mul _
  have h3 : ∀ T : E → N, ∀ g : E → ℝ, ∑ s, ∑ e, (if T e = s then g e else 0) = ∑ e, g e := by
    intro T g
    rw [Finset.sum_comm]
    refine Finset.sum_congr rfl fun e _ => ?_
    rw [Finset.sum_ite_eq Finset.univ (T e) (fun _ => g e), if_pos (Finset.mem_univ _)]
  rw [Finset.sum_congr rfl (fun s _ => h1 s), Finset.sum_congr rfl (fun n _ => h2 n),
    h3 S (fun e => x (S e) * w e * f (D e)), h3 D (fun e => x (S e) * w e * f (D e))]

/-- A finite sum of reals, read in the extended reals, is the sum of the readings. -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The same exchange for real numbers read in the extended reals. -/
private theorem ereal_swap {E N : Type} [Fintype E] [Fintype N] [DecidableEq N] (S D : E → N) (x f : N → ℝ)
    (w : E → ℝ) :
    ∑ s, (x s : EReal) * (∑ e, if S e = s then (f (D e) : EReal) * (w e : EReal) else 0)
      = ∑ n, (∑ e, if D e = n then (x (S e) : EReal) * (w e : EReal) else 0) * (f n : EReal) := by
  have h1 : ∀ s, (x s : EReal) * (∑ e, if S e = s then (f (D e) : EReal) * (w e : EReal) else 0)
      = ((x s * (∑ e, if S e = s then f (D e) * w e else 0) : ℝ) : EReal) := by
    intro s
    rw [EReal.coe_mul, ← coe_sum]
    congr 1
    refine Finset.sum_congr rfl fun e _ => ?_
    by_cases h : S e = s
    · rw [if_pos h, if_pos h, EReal.coe_mul]
    · rw [if_neg h, if_neg h, EReal.coe_zero]
  have h2 : ∀ n, (∑ e, if D e = n then (x (S e) : EReal) * (w e : EReal) else 0) * (f n : EReal)
      = (((∑ e, if D e = n then x (S e) * w e else 0) * f n : ℝ) : EReal) := by
    intro n
    rw [EReal.coe_mul, ← coe_sum]
    congr 1
    refine Finset.sum_congr rfl fun e _ => ?_
    by_cases h : D e = n
    · rw [if_pos h, if_pos h, EReal.coe_mul]
    · rw [if_neg h, if_neg h, EReal.coe_zero]
  rw [Finset.sum_congr rfl (fun s _ => h1 s), Finset.sum_congr rfl (fun n _ => h2 n), coe_sum, coe_sum,
    real_swap S D x f w]

theorem logitsKer_eq_logitsRef (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal)
    (hx : ∀ i, ∃ r : ℝ, x i = (r : EReal)) (hfw : ∀ i, ∃ r : ℝ, fw i = (r : EReal)) (hw : ∀ e, ∃ r : ℝ, w e = (r : EReal))
    (hs : ∀ e, (sw e).toInt = ((gix (sw e)).val : Int)) (hd : ∀ e, (dw e).toInt = ((gix (dw e)).val : Int))
    (b : Fin 128) (c : Fin 30) :
    logitsKer x fw fb sw dw w b c = logitsRef x fw fb sw dw w b c := by
  choose xr hxr using hx
  choose fr hfr using hfw
  choose wr hwr using hw
  have hS : ∀ (e : Fin 660000) (s : Fin 20000), (sw e).toInt = (s.val : Int) ↔ gix (sw e) = s := by
    intro e s
    rw [hs e]
    constructor
    · intro h
      exact Fin.ext (Int.ofNat_inj.mp h)
    · intro h
      rw [h]
  have hD : ∀ (e : Fin 660000) (n : Fin 20000), (dw e).toInt = (n.val : Int) ↔ gix (dw e) = n := by
    intro e n
    rw [hd e]
    constructor
    · intro h
      exact Fin.ext (Int.ofNat_inj.mp h)
    · intro h
      rw [h]
  have hW : ∀ s : Fin 20000, W2 fw sw dw w s c
      = ∑ e, if gix (sw e) = s then ((fr (ix2 c (gix (dw e))) : ℝ) : EReal) * ((wr e : ℝ) : EReal) else 0 := by
    intro s
    unfold W2
    refine Finset.sum_congr rfl fun e _ => ?_
    rw [hfr, hwr]
    exact if_congr (hS e s) rfl rfl
  have hDf : ∀ n : Fin 20000, diffused x sw dw w b n
      = ∑ e, if gix (dw e) = n then ((xr (ix2 b (gix (sw e))) : ℝ) : EReal) * ((wr e : ℝ) : EReal) else 0 := by
    intro n
    unfold diffused
    refine Finset.sum_congr rfl fun e _ => ?_
    rw [hxr, hwr]
    exact if_congr (hD e n) rfl rfl
  have hK : ∀ s : Fin 20000, x (ix2 b s) * W2 fw sw dw w s c
      = ((xr (ix2 b s) : ℝ) : EReal)
        * (∑ e, if gix (sw e) = s then ((fr (ix2 c (gix (dw e))) : ℝ) : EReal) * ((wr e : ℝ) : EReal) else 0) := by
    intro s
    rw [hxr, hW s]
  have hR : ∀ n : Fin 20000, diffused x sw dw w b n * fw (ix2 c n)
      = (∑ e, if gix (dw e) = n then ((xr (ix2 b (gix (sw e))) : ℝ) : EReal) * ((wr e : ℝ) : EReal) else 0)
        * ((fr (ix2 c n) : ℝ) : EReal) := by
    intro n
    rw [hfr, hDf n]
  have hsum : (∑ s : Fin 20000, x (ix2 b s) * W2 fw sw dw w s c)
      = ∑ n : Fin 20000, diffused x sw dw w b n * fw (ix2 c n) := by
    rw [Finset.sum_congr rfl (fun s _ => hK s), Finset.sum_congr rfl (fun n _ => hR n)]
    exact ereal_swap (fun e => gix (sw e)) (fun e => gix (dw e)) (fun s => xr (ix2 b s)) (fun n => fr (ix2 c n)) wr
  unfold logitsKer logitsRef
  rw [hsum]

theorem logitsKerArr_eq_logitsRefArr (x : FVec Ideal ⟨2, ![128, 20000]⟩ .f32) (fw : FVec Ideal ⟨2, ![30, 20000]⟩ .f32)
    (fb : FVec Ideal ⟨1, ![30]⟩ .f32) (sw dw : Fin 660000 → BitVec 32) (w : Fin 660000 → EReal)
    (hx : ∀ i, ∃ r : ℝ, x i = (r : EReal)) (hfw : ∀ i, ∃ r : ℝ, fw i = (r : EReal)) (hw : ∀ e, ∃ r : ℝ, w e = (r : EReal))
    (hs : ∀ e, (sw e).toInt = ((gix (sw e)).val : Int)) (hd : ∀ e, (dw e).toInt = ((gix (dw e)).val : Int)) :
    logitsKerArr x fw fb sw dw w = logitsRefArr x fw fb sw dw w :=
  funext fun i => logitsKer_eq_logitsRef x fw fb sw dw w hx hfw hw hs hd (i 0) (i 1)

end Cert.Diffuse

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.LibVecGather.lean ====
/-
  A host gather of scalars out of a vector, one start index per result element, read at an element.
-/
import Idealize.ShloMosaic.PureOps.Ideal
import Idealize.ShloMosaic.Lib.ValueIdx

noncomputable section

namespace Cert.LibVecGather

open Idealize.ShloMosaic Idealize.ShloMosaic.ValueIdx

variable {α : Type}

/-- The dimension numbers of a gather of scalars out of a vector: operand `[N]`, start indices `[R, 1]` (one
    element number per result element), result `[R]`; the operand's one axis is collapsed and indexed, there is no
    offset axis, the slice is one element. The conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather with the record above, read at `k`: the operand index is, on the one axis, the clamped start
    (the start index `idx[k, 0]` read signed) plus a zero batching coordinate plus a zero offset coordinate. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (k : Fin R) :
    Host.gather (vecGatherDims N R wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (vecGatherDims N R wf).start (ix1 k) idx 0 + (vecGatherDims N R wf).batchCoord (ix1 k) 0
    + (vecGatherDims N R wf).offCoord (ix1 k) 0 = _
  -- no batching axis; axis 0 is collapsed, so it is not a kept axis and its offset coordinate is zero
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map, at position 0: the start reads the start indices at (k, 0)
  unfold GatherDims.start
  rw [dif_pos (show (0 : Fin 1) ∈ (vecGatherDims N R wf).startIndexMap from List.mem_singleton.mpr rfl)]
  have hsi : (vecGatherDims N R wf).siIdx (ix1 k) ⟨List.idxOf (0 : Fin 1) (vecGatherDims N R wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- THE VECTOR GATHER READ AT `k`: operand `[N]`, start indices `[R, 1]`, result `[R]`; the operand's one axis is
    collapsed and indexed, the slice is one element. Element `k` is the operand at the start index `idx[k, 0]`, read
    signed and clamped into `[0, N − 1]`. Stated for any dimension numbers whose fields are those of such a gather
    (a printed record's are, each by `rfl`). -/
theorem gather_vec_apply_of {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (k : Fin R) :
    Host.gather d x idx (ix1 k) = x (ix1 ⟨min (idx (ix2 k (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_vec_apply hN wf x idx k

end Cert.LibVecGather

end
-- ==== Proof.Common.lean ====
/-
  The part both programs share, read at an arc: the source and target words, the weight, the word brought into range for
  a gather, and the normalized weight `wn`; and two facts about them — a node word that lies in `[0, 20000)` is its own
  gather index, and every normalized weight is a real number when the input weights are.
-/
import proofs.«404574_j14869176779094_2_alg».proof.Proof.Spec
import proofs.«404574_j14869176779094_2_alg».proof.Proof.LibIndex
import proofs.«404574_j14869176779094_2_alg».proof.Proof.LibVecGather
import proofs.«404574_j14869176779094_2_alg».proof.Proof.Gen.ReferenceIdeal.Read

noncomputable section

open scoped BigOperators

namespace Cert.Diffuse

open Idealize.ShloMosaic Idealize.ShloMosaic.ValueIdx
open Cert.ReferenceIdeal Cert.ReferenceIdeal.Read

/-- A concatenation of 640000 and 20000 entries at position e. -/
theorem concat_apply {α : Type} (a : S640000.Idx → α) (b : S20000.Idx → α)
    (h : Shape.Concatenates [S640000, S20000] S660000 0) (e : Fin 660000) :
    concatenate S660000 0 [⟨S640000, a⟩, ⟨S20000, b⟩] h (ix1 e)
      = if h' : e.val < 640000 then a (ix1 ⟨e.val, h'⟩) else b (ix1 ⟨e.val - 640000, by omega⟩) := by
  split
  · next h' =>
    exact concatenate_pair_apply_left (0 : Fin 1) a b h (ix1 e) rfl (ix1 ⟨e.val, h'⟩)
      (fun b => by match b with | ⟨0, _⟩ => rfl)
  · next h' =>
    exact concatenate_pair_apply_right (0 : Fin 1) a b h (ix1 e) rfl rfl (ix1 ⟨e.val - 640000, by omega⟩)
      (fun b hb => by match b with | ⟨0, _⟩ => exact absurd rfl hb)
      (by show e.val - 640000 + 640000 = e.val; omega)

/-- The concatenated source words at arc `e`. -/
theorem v5_apply (x1 : IVec ⟨2, ![2, 640000]⟩ 32) (e : Fin 660000) :
    val_main_v5 (F := Ideal) x1 (ix1 e) = srcw x1 e := by
  unfold val_main_v5 srcw
  rw [concat_apply]
  split
  · next h =>
    rw [val_main_v1_apply, val_main_v0_apply]
    congr 1
    funext a
    match a with
    | ⟨0, _⟩ => rfl
    | ⟨1, _⟩ => exact Fin.ext (Nat.mod_eq_of_lt h)
  · rfl

/-- The concatenated target words at arc `e`. -/
theorem v6_apply (x1 : IVec ⟨2, ![2, 640000]⟩ 32) (e : Fin 660000) :
    val_main_v6 (F := Ideal) x1 (ix1 e) = dstw x1 e := by
  unfold val_main_v6 dstw
  rw [concat_apply]
  split
  · next h =>
    rw [val_main_v3_apply, val_main_v2_apply]
    congr 1
    funext a
    match a with
    | ⟨0, _⟩ => rfl
    | ⟨1, _⟩ => exact Fin.ext (Nat.mod_eq_of_lt h)
  · rfl

/-- The concatenated weights at arc `e`. -/
theorem v8_apply (x2 : FVec Ideal ⟨1, ![640000]⟩ .f32) (e : Fin 660000) :
    val_main_v8 (F := Ideal) x2 (ix1 e) = wfv x2 e := by
  unfold val_main_v8 wfv
  rw [concat_apply]
  split
  · rfl
  · rw [val_main_v7_apply, val_main_cst_apply]; rfl

/-- The three gathers' start words at arc `e`: the source or target word brought into range. -/
theorem v20_apply (x1 : IVec ⟨2, ![2, 640000]⟩ 32) (e : Fin 660000) :
    val_main_v20 (F := Ideal) x1 (ix1 e) = normw (srcw x1 e) := by
  rw [val_main_v20_apply, val_main_v17_apply, val_main_v19_apply, val_main_v16_apply, val_main_v18_apply,
    val_main_c_apply, val_main_c_3_apply, v5_apply]
  rfl

theorem v28_apply (x1 : IVec ⟨2, ![2, 640000]⟩ 32) (e : Fin 660000) :
    val_main_v28 (F := Ideal) x1 (ix1 e) = normw (dstw x1 e) := by
  rw [val_main_v28_apply, val_main_v25_apply, val_main_v27_apply, val_main_v24_apply, val_main_v26_apply,
    val_main_c_4_apply, val_main_c_5_apply, v6_apply]
  rfl

theorem v36_apply (x1 : IVec ⟨2, ![2, 640000]⟩ 32) (e : Fin 660000) :
    val_main_v36 (F := Ideal) x1 (ix1 e) = normw (srcw x1 e) := by
  rw [val_main_v36_apply, val_main_v33_apply, val_main_v35_apply, val_main_v32_apply, val_main_v34_apply,
    val_main_c_6_apply, val_main_c_7_apply, v5_apply]
  rfl

/-- The degree of node n, as the scatter-add computes it from zeros. -/
theorem v11_apply (x1 : IVec ⟨2, ![2, 640000]⟩ 32) (x2 : FVec Ideal ⟨1, ![640000]⟩ .f32) (n : Fin 20000) :
    val_main_v11 (F := Ideal) x1 x2 (ix1 n) = deg (dstw x1) (wfv x2) n := by
  unfold val_main_v11
  rw [Cert.LibIndex.scatterAdd_vec_apply_of scatter_S20000_S660000x1_S660000_n_0_0_1 rfl rfl rfl rfl]
  rw [val_main_v9_apply, val_main_cst_0_apply]
  show Ideal.ofBits .f32 0x00000000#32 + _ = _
  rw [Ideal.ofBits_zero_f32, zero_add]
  unfold deg
  refine Finset.sum_congr rfl fun k _ => ?_
  have hk : idx_main_v10 (ix2 k (0 : Fin 1)) = ix1 k := by
    funext a; match a with | ⟨0, _⟩ => rfl
  rw [val_main_v10_apply, hk, v6_apply, v8_apply]

/-- The inverse square root of the degree where it is positive, zero elsewhere, as the select computes it. -/
theorem v15_apply' (x1 : IVec ⟨2, ![2, 640000]⟩ 32) (x2 : FVec Ideal ⟨1, ![640000]⟩ .f32) (n : Fin 20000) :
    val_main_v15 (F := Ideal) x1 x2 (ix1 n) = dinv (deg (dstw x1) (wfv x2)) n := by
  rw [val_main_v15_apply, val_main_v13_apply, val_main_v14_apply, val_main_call0_v1_apply,
    val_main_call0_v0_apply, val_main_cst_2_apply, val_main_v12_apply, val_main_cst_1_apply, v11_apply]
  have hz : (FloatOps.ofBits .f32 0x00000000#32 : Ideal .f32) = (0 : EReal) := Ideal.ofBits_zero_f32
  rw [Ideal.cmpf_def, Ideal.hostUnary_rsqrt_def, hz]
  unfold dinv
  generalize deg (dstw x1) (wfv x2) n = d
  unfold Scalar.select Ideal.cmp
  by_cases h : 0 < d
  · simp only [h, decide_true, BitVec.ofBool_true, if_true]
  · simp only [h, decide_false, BitVec.ofBool_false]
    exact if_neg (by decide)

/-- The first gather reads the inverse square root at the source word brought into range. -/
theorem v22_apply (x1 : IVec ⟨2, ![2, 640000]⟩ 32) (x2 : FVec Ideal ⟨1, ![640000]⟩ .f32) (e : Fin 660000) :
    val_main_v22 (F := Ideal) x1 x2 (ix1 e) = dinv (deg (dstw x1) (wfv x2)) (gix (srcw x1 e)) := by
  have hk : idx_main_v21 (ix2 e (0 : Fin 1)) = ix1 e := by
    funext a; match a with | ⟨0, _⟩ => rfl
  have hidx : val_main_v21 (F := Ideal) x1 (ix2 e (0 : Fin 1)) = normw (srcw x1 e) := by
    rw [val_main_v21_apply, hk, v20_apply]
  unfold val_main_v22
  rw [Cert.LibVecGather.gather_vec_apply_of (by omega : 0 < 20000)
    gather_S20000_S660000x1_S660000_n_0_n_n_0_1_1 rfl rfl rfl rfl rfl rfl rfl, v15_apply']
  refine congrArg (dinv (deg (dstw x1) (wfv x2))) (Fin.ext ?_)
  show min (val_main_v21 (F := Ideal) x1 (ix2 e (0 : Fin 1))).toInt.toNat (20000 - 1)
    = min (normw (srcw x1 e)).toInt.toNat (20000 - 1)
  rw [hidx]

/-- The second gather reads it at the target word brought into range. -/
theorem v30_apply (x1 : IVec ⟨2, ![2, 640000]⟩ 32) (x2 : FVec Ideal ⟨1, ![640000]⟩ .f32) (e : Fin 660000) :
    val_main_v30 (F := Ideal) x1 x2 (ix1 e) = dinv (deg (dstw x1) (wfv x2)) (gix (dstw x1 e)) := by
  have hk : idx_main_v29 (ix2 e (0 : Fin 1)) = ix1 e := by
    funext a; match a with | ⟨0, _⟩ => rfl
  have hidx : val_main_v29 (F := Ideal) x1 (ix2 e (0 : Fin 1)) = normw (dstw x1 e) := by
    rw [val_main_v29_apply, hk, v28_apply]
  unfold val_main_v30
  rw [Cert.LibVecGather.gather_vec_apply_of (by omega : 0 < 20000)
    gather_S20000_S660000x1_S660000_n_0_n_n_0_1_1 rfl rfl rfl rfl rfl rfl rfl, v15_apply']
  refine congrArg (dinv (deg (dstw x1) (wfv x2))) (Fin.ext ?_)
  show min (val_main_v29 (F := Ideal) x1 (ix2 e (0 : Fin 1))).toInt.toNat (20000 - 1)
    = min (normw (dstw x1 e)).toInt.toNat (20000 - 1)
  rw [hidx]

/-- The normalized weight at arc `e`. -/
theorem v31_apply (x1 : IVec ⟨2, ![2, 640000]⟩ 32) (x2 : FVec Ideal ⟨1, ![640000]⟩ .f32) (e : Fin 660000) :
    val_main_v31 (F := Ideal) x1 x2 (ix1 e) = wn (srcw x1) (dstw x1) (wfv x2) e := by
  rw [val_main_v31_apply, val_main_v23_apply, v22_apply, v30_apply, v8_apply]
  rfl

/-- The word of a number below 20000, read signed, is that number. -/
theorem toInt_ofNat_small (n : Nat) (hn : n < 20000) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- When every entry of the arc table is a node, so is every source word (a self loop's word is its node). -/
theorem srcw_range (x1 : IVec ⟨2, ![2, 640000]⟩ 32) (h : ∀ i, 0 ≤ (x1 i).toInt ∧ (x1 i).toInt < 20000) (e : Fin 660000) :
    0 ≤ (srcw x1 e).toInt ∧ (srcw x1 e).toInt < 20000 := by
  unfold srcw
  split
  · exact h _
  · next hlt =>
    have he := e.isLt
    rw [toInt_ofNat_small _ (by omega)]
    omega

theorem dstw_range (x1 : IVec ⟨2, ![2, 640000]⟩ 32) (h : ∀ i, 0 ≤ (x1 i).toInt ∧ (x1 i).toInt < 20000) (e : Fin 660000) :
    0 ≤ (dstw x1 e).toInt ∧ (dstw x1 e).toInt < 20000 := by
  unfold dstw
  split
  · exact h _
  · next hlt =>
    have he := e.isLt
    rw [toInt_ofNat_small _ (by omega)]
    omega

/-- A nonnegative word is not below zero as a signed number, so bringing it into range leaves it alone. -/
theorem normw_of_nonneg (w : BitVec 32) (h0 : 0 ≤ w.toInt) : normw w = w := by
  have hs : w.slt 0#32 = false := by
    rw [BitVec.slt_eq_decide]
    simp only [BitVec.toInt_zero, decide_eq_false_iff_not, not_lt]
    exact h0
  unfold normw IntOp.cmpi
  simp only [hs]
  rfl

/-- A word that is a node is its own gather index. -/
theorem gix_val (w : BitVec 32) (h0 : 0 ≤ w.toInt) (h1 : w.toInt < 20000) : w.toInt = ((gix w).val : Int) := by
  show w.toInt = ((min (normw w).toInt.toNat (20000 - 1) : Nat) : Int)
  rw [normw_of_nonneg w h0]
  omega

/-- The word 0x3F800000 is the number one. -/
theorem ofBits_one_f32 : Ideal.ofBits .f32 0x3F800000#32 = 1 := by
  simp [Ideal.ofBits, Ideal.ieee, -EReal.coe_mul]; norm_num

/-- Every weight is real when the input weights are. -/
theorem wfv_real (x2 : FVec Ideal ⟨1, ![640000]⟩ .f32) (h2 : ∀ i, ∃ r : ℝ, x2 i = (r : EReal)) (e : Fin 660000) :
    ∃ r : ℝ, wfv x2 e = (r : EReal) := by
  unfold wfv
  split
  · exact h2 _
  · exact ⟨1, by rw [ofBits_one_f32]; rfl⟩

/-- A finite sum of reals is real. -/
theorem sum_real {K : Type*} (s : Finset K) (f : K → EReal) (hf : ∀ k, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

/-- A degree is real when the weights are. -/
theorem deg_real (dw : Fin 660000 → BitVec 32) (wf : Fin 660000 → EReal) (hw : ∀ e, ∃ r : ℝ, wf e = (r : EReal))
    (n : Fin 20000) : ∃ r : ℝ, deg dw wf n = (r : EReal) := by
  unfold deg
  refine sum_real Finset.univ _ fun k => ?_
  split
  · exact hw k
  · exact ⟨0, rfl⟩

/-- The inverse square root of a real degree, taken only where it is positive, is real. -/
theorem dinv_real (d : Fin 20000 → EReal) (hd : ∀ n, ∃ r : ℝ, d n = (r : EReal)) (n : Fin 20000) :
    ∃ r : ℝ, dinv d n = (r : EReal) := by
  unfold dinv
  obtain ⟨r, hr⟩ := hd n
  rw [hr]
  split
  · next hpos =>
    have hr0 : 0 < r := by exact_mod_cast hpos
    refine ⟨(Real.sqrt r)⁻¹, ?_⟩
    rw [Ideal.rsqrt_coe, if_neg (not_lt.mpr hr0.le), if_neg hr0.ne']
  · exact ⟨0, rfl⟩

/-- Every normalized weight is real when the input weights are: a degree is a finite sum of reals, its inverse square
    root is taken only where it is positive, and the weight is a product of three reals. -/
theorem wn_real (x1 : IVec ⟨2, ![2, 640000]⟩ 32) (x2 : FVec Ideal ⟨1, ![640000]⟩ .f32)
    (h2 : ∀ i, ∃ r : ℝ, x2 i = (r : EReal)) (e : Fin 660000) :
    ∃ r : ℝ, wn (srcw x1) (dstw x1) (wfv x2) e = (r : EReal) := by
  have hw := wfv_real x2 h2
  have hd := dinv_real _ (deg_real (dstw x1) (wfv x2) hw)
  obtain ⟨a, ha⟩ := hd (gix (srcw x1 e))
  obtain ⟨b, hb⟩ := hw e
  obtain ⟨c, hc⟩ := hd (gix (dstw x1 e))
  refine ⟨a * b * c, ?_⟩
  unfold wn
  rw [ha, hb, hc, EReal.coe_mul, EReal.coe_mul]

end Cert.Diffuse

end
-- ==== Proof.LibCols.lean ====
/-
  A gather of columns and two scatters that set, each read at an index.

  A gather of whole columns of a matrix (one start index per result column), a scatter that replaces whole columns
  of an operand by the columns of an update matrix, and its rank-1 form that replaces scalars of a vector: each is
  read at one element. A scatter whose body returns the update is a left fold of "replace the element the update
  lands on"; where all the updates that land on an element carry one value the order of the fold does not matter,
  and the result at the element is that value, or the operand's element when no update lands there.
-/
import Idealize.ShloMosaic.PureOps.ShapeOps
import Idealize.ShloMosaic.Lib.ValueIdx

namespace Idealize.ShloMosaic.LibCols

open Idealize.ShloMosaic Idealize.ShloMosaic.ValueIdx

/-! ## A left fold read at one point -/

section Fold
variable {κ ι β : Type}

/-- A left fold none of whose steps changes the value at `i` leaves the value at `i`. -/
theorem foldl_apply_of_miss (step : (ι → β) → κ → ι → β) (i : ι) :
    ∀ (l : List κ) (x : ι → β), (∀ n ∈ l, ∀ r, step r n i = r i) → l.foldl step x i = x i := by
  intro l
  induction l with
  | nil => intro x _; rfl
  | cons m l ih =>
    intro x h
    rw [List.foldl_cons, ih (step x m) (fun n hn => h n (List.mem_cons_of_mem _ hn)),
      h m (List.mem_cons.mpr (Or.inl rfl))]

/-- A left fold each of whose steps either puts `b` at `i` (the steps in `P`) or leaves the value at `i` has `b` at
    `i` as soon as one of its steps is in `P`: after the last such step nothing changes there any more. -/
theorem foldl_apply_of_hit (step : (ι → β) → κ → ι → β) (i : ι) (b : β) (P : κ → Prop) :
    ∀ (l : List κ) (x : ι → β), (∀ n ∈ l, P n → ∀ r, step r n i = b) → (∀ n ∈ l, ¬P n → ∀ r, step r n i = r i) →
      (∃ n ∈ l, P n) → l.foldl step x i = b := by
  intro l
  induction l with
  | nil =>
    intro x _ _ h
    obtain ⟨n, hn, _⟩ := h
    exact absurd hn List.not_mem_nil
  | cons m l ih =>
    intro x hP hN hex
    rw [List.foldl_cons]
    have hP' : ∀ n ∈ l, P n → ∀ r, step r n i = b := fun n hn => hP n (List.mem_cons_of_mem _ hn)
    have hN' : ∀ n ∈ l, ¬P n → ∀ r, step r n i = r i := fun n hn => hN n (List.mem_cons_of_mem _ hn)
    by_cases hl : ∃ n ∈ l, P n
    · exact ih _ hP' hN' hl
    · have hm : P m := by
        obtain ⟨n, hn, hpn⟩ := hex
        rcases List.mem_cons.mp hn with rfl | hn'
        · exact hpn
        · exact absurd ⟨n, hn', hpn⟩ hl
      rw [foldl_apply_of_miss step i l _ (fun n hn r => hN' n hn (fun hpn => hl ⟨n, hn, hpn⟩) r)]
      exact hP m (List.mem_cons.mpr (Or.inl rfl)) hm x

end Fold

/-! ## A scatter that sets, for any shapes and dimension numbers -/

section ScatterSet
variable {α : Type} {s si u : Shape} {w : Nat}

/-- A scatter whose body returns the update, read at an element on which no update lands: the operand's element. -/
theorem scatter_set_apply_of_miss (d : ScatterDims s si u) (x : s.Idx → α) (idx : IVec si w) (upd : u.Idx → α)
    (i : s.Idx) (h : ∀ k : u.Idx, d.resultIdx? k idx ≠ some i) :
    Host.scatter d (fun _ b => b) x idx upd i = x i := by
  unfold Host.scatter
  refine foldl_apply_of_miss _ i _ x (fun n _ r => ?_)
  have hn := h (u.rowMajor.symm n)
  dsimp only
  cases hres : d.resultIdx? (u.rowMajor.symm n) idx with
  | none => rfl
  | some i0 => exact if_neg (fun e => hn (by rw [hres, e]))

/-- A scatter whose body returns the update, read at an element on which some update lands, all the updates that
    land there carrying the value `v`: that value, whatever the order the updates are taken in. -/
theorem scatter_set_apply_of_hit (d : ScatterDims s si u) (x : s.Idx → α) (idx : IVec si w) (upd : u.Idx → α)
    (i : s.Idx) (v : α) (hv : ∀ k : u.Idx, d.resultIdx? k idx = some i → upd k = v)
    (hex : ∃ k : u.Idx, d.resultIdx? k idx = some i) :
    Host.scatter d (fun _ b => b) x idx upd i = v := by
  unfold Host.scatter
  refine foldl_apply_of_hit _ i v (fun n => d.resultIdx? (u.rowMajor.symm n) idx = some i) _ x ?_ ?_ ?_
  · intro n _ hn r
    dsimp only
    rw [hn]
    exact (if_pos rfl).trans (hv _ hn)
  · intro n _ hn r
    dsimp only
    cases hres : d.resultIdx? (u.rowMajor.symm n) idx with
    | none => rfl
    | some i0 => exact if_neg (fun e => hn (by rw [hres, e]))
  · obtain ⟨k, hk⟩ := hex
    exact ⟨u.rowMajor k, List.mem_finRange _, by rw [Equiv.symm_apply_apply]; exact hk⟩

end ScatterSet

/-- An axis is among a shape's kept axes exactly when it is not among the removed ones. -/
theorem mem_kept_iff {s : Shape} (axes : List (Fin s.rank)) (a : Fin s.rank) : a ∈ s.kept axes ↔ a ∉ axes := by
  simp [Shape.kept, List.mem_filter, List.mem_finRange]

/-! ## A gather of columns -/

section ColGather
variable {α : Type}

/-- The dimension numbers of a gather of whole columns: operand `[B, N]`, start indices `[R, 1]` (one column number
    per result column), result `[B, R]`; axis 1 of the operand is collapsed and indexed, axis 0 is the offset axis,
    the slice is one whole column. The conditions `wf` are decided on a program's literal shapes. -/
abbrev colGatherDims (B N R : Nat)
    (wf : GatherDims.WF ⟨2, ![B, N]⟩ ⟨2, ![R, 1]⟩ ⟨2, ![B, R]⟩ [0] [1] [] [1] [] 1 ![B, 1]) :
    GatherDims ⟨2, ![B, N]⟩ ⟨2, ![R, 1]⟩ ⟨2, ![B, R]⟩ where
  offsetDims := [0]
  collapsedSliceDims := [1]
  operandBatchingDims := []
  startIndicesBatchingDims := []
  startIndexMap := [1]
  indexVectorDim := 1
  sliceSizes := ![B, 1]
  wf := wf

/-- THE COLUMN GATHER READ AT `(r, j)`: row `r` of the operand's column whose number is the start index
    `idx[j, 0]`, read signed and clamped into `[0, N − 1]`. -/
theorem gather_col_apply {B N R w : Nat} (hN : 0 < N)
    (wf : GatherDims.WF ⟨2, ![B, N]⟩ ⟨2, ![R, 1]⟩ ⟨2, ![B, R]⟩ [0] [1] [] [1] [] 1 ![B, 1])
    (x : (⟨2, ![B, N]⟩ : Shape).Idx → α) (idx : IVec ⟨2, ![R, 1]⟩ w) (r : Fin B) (j : Fin R) :
    Host.gather (colGatherDims B N R wf) x idx (ix2 r j)
      = x (ix2 r ⟨min (idx (ix2 j (0 : Fin 1))).toInt.toNat (N - 1), by omega⟩) := by
  -- the start on axis 1: the clamped start index; on axis 0 (not in the start index map): zero
  have hst1 : (colGatherDims B N R wf).start (ix2 r j) idx (1 : Fin 2)
      = min (idx (ix2 j (0 : Fin 1))).toInt.toNat (N - 1) := by
    unfold GatherDims.start
    rw [dif_pos (show (1 : Fin 2) ∈ (colGatherDims B N R wf).startIndexMap from List.mem_singleton.mpr rfl)]
    have hsi : (colGatherDims B N R wf).siIdx (ix2 r j) ⟨List.idxOf (1 : Fin 2) (colGatherDims B N R wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  have hst0 : (colGatherDims B N R wf).start (ix2 r j) idx (0 : Fin 2) = 0 := by
    unfold GatherDims.start
    exact dif_neg (show (0 : Fin 2) ∉ ([1] : List (Fin 2)) from by decide)
  -- the offset coordinate: zero on the collapsed axis 1, the result's row on axis 0
  have hoff1 : (colGatherDims B N R wf).offCoord (ix2 r j) (1 : Fin 2) = 0 :=
    GatherDims.offCoord_eq_zero _ _ _ (fun h => ((GatherDims.mem_sKept _ _).mp h).1 (List.mem_singleton.mpr rfl))
  have hoff0 : (colGatherDims B N R wf).offCoord (ix2 r j) (0 : Fin 2) = r.val := by
    unfold GatherDims.offCoord
    rw [dif_pos ((GatherDims.mem_sKept (colGatherDims B N R wf) (0 : Fin 2)).mpr
      ⟨(show (0 : Fin 2) ∉ ([1] : List (Fin 2)) from by decide), List.not_mem_nil⟩)]
    rfl
  unfold Host.gather
  congr 1
  funext a
  refine Fin.ext ?_
  match a with
  | ⟨0, _⟩ =>
    show (colGatherDims B N R wf).start (ix2 r j) idx (0 : Fin 2) + (colGatherDims B N R wf).batchCoord (ix2 r j) (0 : Fin 2)
      + (colGatherDims B N R wf).offCoord (ix2 r j) (0 : Fin 2) = r.val
    rw [GatherDims.batchCoord_eq_zero _ _ _ List.not_mem_nil, hst0, hoff0]
    omega
  | ⟨1, _⟩ =>
    show (colGatherDims B N R wf).start (ix2 r j) idx (1 : Fin 2) + (colGatherDims B N R wf).batchCoord (ix2 r j) (1 : Fin 2)
      + (colGatherDims B N R wf).offCoord (ix2 r j) (1 : Fin 2) = min (idx (ix2 j (0 : Fin 1))).toInt.toNat (N - 1)
    rw [GatherDims.batchCoord_eq_zero _ _ _ List.not_mem_nil, hst1, hoff1]
    rfl

/-- The same for any dimension numbers whose fields are those of a gather of columns (a printed record's are, each
    by `rfl`). -/
theorem gather_col_apply_of {B N R w : Nat} (hN : 0 < N) (d : GatherDims ⟨2, ![B, N]⟩ ⟨2, ![R, 1]⟩ ⟨2, ![B, R]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![B, 1])
    (x : (⟨2, ![B, N]⟩ : Shape).Idx → α) (idx : IVec ⟨2, ![R, 1]⟩ w) (r : Fin B) (j : Fin R) :
    Host.gather d x idx (ix2 r j)
      = x (ix2 r ⟨min (idx (ix2 j (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_col_apply hN wf x idx r j

end ColGather

/-! ## A scatter that sets columns -/

section ColScatter
variable {α : Type}

/-- The dimension numbers of a scatter of whole columns: operand `[O, N]`, scatter indices `[R, 1]` (one column
    number per update column), updates `[O, R]`; axis 1 of the operand is the inserted, indexed axis, axis 0 of the
    updates is the window axis. -/
abbrev colScatterDims (O N R : Nat)
    (wf : ScatterDims.WF ⟨2, ![O, N]⟩ ⟨2, ![R, 1]⟩ ⟨2, ![O, R]⟩ [0] [1] [1] 1) :
    ScatterDims ⟨2, ![O, N]⟩ ⟨2, ![R, 1]⟩ ⟨2, ![O, R]⟩ where
  updateWindowDims := [0]
  insertedWindowDims := [1]
  scatterDimsToOperandDims := [1]
  indexVectorDim := 1
  wf := wf

/-- The window of update column `j` starts, on the operand's axis 1, at the scatter index `idx[j, 0]` read signed. -/
theorem colScatter_start1 {O N R w : Nat}
    (wf : ScatterDims.WF ⟨2, ![O, N]⟩ ⟨2, ![R, 1]⟩ ⟨2, ![O, R]⟩ [0] [1] [1] 1)
    (idx : IVec ⟨2, ![R, 1]⟩ w) (o : Fin O) (j : Fin R) :
    (colScatterDims O N R wf).start (ix2 o j) idx (1 : Fin 2) = (idx (ix2 j (0 : Fin 1))).toInt := by
  unfold ScatterDims.start
  rw [dif_pos (show (1 : Fin 2) ∈ (colScatterDims O N R wf).scatterDimsToOperandDims from List.mem_singleton.mpr rfl)]
  have hsi : (colScatterDims O N R wf).siIdx (ix2 o j) ⟨List.idxOf (1 : Fin 2) (colScatterDims O N R wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the operand's axis 0, which the scatter indices do not address, the window starts at zero. -/
theorem colScatter_start0 {O N R w : Nat}
    (wf : ScatterDims.WF ⟨2, ![O, N]⟩ ⟨2, ![R, 1]⟩ ⟨2, ![O, R]⟩ [0] [1] [1] 1)
    (idx : IVec ⟨2, ![R, 1]⟩ w) (k : (⟨2, ![O, R]⟩ : Shape).Idx) :
    (colScatterDims O N R wf).start k idx (0 : Fin 2) = 0 := by
  unfold ScatterDims.start
  exact dif_neg (show (0 : Fin 2) ∉ ([1] : List (Fin 2)) from by decide)

/-- The window coordinate on the inserted axis 1 is zero. -/
theorem colScatter_window1 {O N R : Nat}
    (wf : ScatterDims.WF ⟨2, ![O, N]⟩ ⟨2, ![R, 1]⟩ ⟨2, ![O, R]⟩ [0] [1] [1] 1)
    (k : (⟨2, ![O, R]⟩ : Shape).Idx) :
    (colScatterDims O N R wf).window k (1 : Fin 2) = 0 := by
  unfold ScatterDims.window
  exact dif_neg (fun h => ((mem_kept_iff _ _).mp h) (List.mem_singleton.mpr rfl))

/-- The window coordinate on axis 0 is the update's row. -/
theorem colScatter_window0 {O N R : Nat}
    (wf : ScatterDims.WF ⟨2, ![O, N]⟩ ⟨2, ![R, 1]⟩ ⟨2, ![O, R]⟩ [0] [1] [1] 1)
    (k : (⟨2, ![O, R]⟩ : Shape).Idx) :
    (colScatterDims O N R wf).window k (0 : Fin 2) = (k 0).val := by
  have h0k : (0 : Fin 2) ∈ (colScatterDims O N R wf).sKept :=
    (mem_kept_iff _ _).mpr (show (0 : Fin 2) ∉ ([1] : List (Fin 2)) from by decide)
  unfold ScatterDims.window
  rw [dif_pos h0k]
  rfl

/-- Update element `(o', j)` lands on operand element `(o, c)` exactly when column `j`'s scatter index, read signed,
    is `c` and the rows agree (an index that is not a column number lands nowhere). -/
theorem colScatter_resultIdx?_eq_some {O N R w : Nat}
    (wf : ScatterDims.WF ⟨2, ![O, N]⟩ ⟨2, ![R, 1]⟩ ⟨2, ![O, R]⟩ [0] [1] [1] 1)
    (idx : IVec ⟨2, ![R, 1]⟩ w) (o' : Fin O) (j : Fin R) (o : Fin O) (c : Fin N) :
    (colScatterDims O N R wf).resultIdx? (ix2 o' j) idx = some (ix2 o c)
      ↔ (idx (ix2 j (0 : Fin 1))).toInt = (c.val : Int) ∧ o' = o := by
  have hs1 := colScatter_start1 wf idx o' j
  have hs0 := colScatter_start0 wf idx (ix2 o' j)
  have hw1 := colScatter_window1 wf (ix2 o' j)
  have hw0 : (colScatterDims O N R wf).window (ix2 o' j) (0 : Fin 2) = o'.val := colScatter_window0 wf (ix2 o' j)
  have hc := c.isLt
  have ho' := o'.isLt
  unfold ScatterDims.resultIdx?
  split
  · rename_i h
    rw [Option.some.injEq]
    constructor
    · intro hf
      have h0 : ((colScatterDims O N R wf).start (ix2 o' j) idx (0 : Fin 2)
          + ((colScatterDims O N R wf).window (ix2 o' j) (0 : Fin 2) : Int)).toNat = o.val :=
        congrArg Fin.val (congrFun hf (0 : Fin 2))
      have h1 : ((colScatterDims O N R wf).start (ix2 o' j) idx (1 : Fin 2)
          + ((colScatterDims O N R wf).window (ix2 o' j) (1 : Fin 2) : Int)).toNat = c.val :=
        congrArg Fin.val (congrFun hf (1 : Fin 2))
      have hh := (h (1 : Fin 2)).1
      rw [hs1, hw1] at h1 hh
      rw [hs0, hw0] at h0
      exact ⟨by omega, Fin.ext (by omega)⟩
    · rintro ⟨hc', hoo⟩
      have hov : o'.val = o.val := congrArg Fin.val hoo
      funext a
      refine Fin.ext ?_
      match a with
      | ⟨0, _⟩ =>
        show ((colScatterDims O N R wf).start (ix2 o' j) idx (0 : Fin 2)
          + ((colScatterDims O N R wf).window (ix2 o' j) (0 : Fin 2) : Int)).toNat = o.val
        rw [hs0, hw0]; omega
      | ⟨1, _⟩ =>
        show ((colScatterDims O N R wf).start (ix2 o' j) idx (1 : Fin 2)
          + ((colScatterDims O N R wf).window (ix2 o' j) (1 : Fin 2) : Int)).toNat = c.val
        rw [hs1, hw1, hc']; omega
  · rename_i h
    refine iff_of_false (by simp) ?_
    rintro ⟨hc', -⟩
    apply h
    intro a
    match a with
    | ⟨0, _⟩ =>
      show 0 ≤ (colScatterDims O N R wf).start (ix2 o' j) idx (0 : Fin 2)
          + ((colScatterDims O N R wf).window (ix2 o' j) (0 : Fin 2) : Int)
        ∧ (colScatterDims O N R wf).start (ix2 o' j) idx (0 : Fin 2)
          + ((colScatterDims O N R wf).window (ix2 o' j) (0 : Fin 2) : Int) < (O : Int)
      rw [hs0, hw0]; omega
    | ⟨1, _⟩ =>
      show 0 ≤ (colScatterDims O N R wf).start (ix2 o' j) idx (1 : Fin 2)
          + ((colScatterDims O N R wf).window (ix2 o' j) (1 : Fin 2) : Int)
        ∧ (colScatterDims O N R wf).start (ix2 o' j) idx (1 : Fin 2)
          + ((colScatterDims O N R wf).window (ix2 o' j) (1 : Fin 2) : Int) < (N : Int)
      rw [hs1, hw1, hc']; omega

/-- THE COLUMN SCATTER THAT SETS, READ AT `(o, c)`, the scatter indices pairwise distinct as signed integers: row
    `o` of the update column whose scatter index is `c` when there is one, else the operand's element (an update
    whose index is not a column number is dropped). -/
theorem scatter_col_set_apply {O N R w : Nat}
    (wf : ScatterDims.WF ⟨2, ![O, N]⟩ ⟨2, ![R, 1]⟩ ⟨2, ![O, R]⟩ [0] [1] [1] 1)
    (x : (⟨2, ![O, N]⟩ : Shape).Idx → α) (idx : IVec ⟨2, ![R, 1]⟩ w) (upd : (⟨2, ![O, R]⟩ : Shape).Idx → α)
    (hinj : ∀ j j' : Fin R, (idx (ix2 j (0 : Fin 1))).toInt = (idx (ix2 j' (0 : Fin 1))).toInt → j = j')
    (o : Fin O) (c : Fin N) :
    Host.scatter (colScatterDims O N R wf) (fun _ b => b) x idx upd (ix2 o c)
      = if h : ∃ j : Fin R, (idx (ix2 j (0 : Fin 1))).toInt = (c.val : Int) then upd (ix2 o h.choose)
        else x (ix2 o c) := by
  by_cases h : ∃ j : Fin R, (idx (ix2 j (0 : Fin 1))).toInt = (c.val : Int)
  · rw [dif_pos h]
    refine scatter_set_apply_of_hit _ x idx upd (ix2 o c) _ ?_ ?_
    · intro k hk
      obtain ⟨o', j, rfl⟩ : ∃ o' j, k = ix2 o' j := ⟨k 0, k 1, eq_ix2 k⟩
      obtain ⟨hj, rfl⟩ := (colScatter_resultIdx?_eq_some wf idx o' j o c).mp hk
      rw [hinj j h.choose (hj.trans h.choose_spec.symm)]
    · exact ⟨ix2 o h.choose, (colScatter_resultIdx?_eq_some wf idx o h.choose o c).mpr ⟨h.choose_spec, rfl⟩⟩
  · rw [dif_neg h]
    refine scatter_set_apply_of_miss _ x idx upd (ix2 o c) (fun k hk => h ?_)
    obtain ⟨o', j, rfl⟩ : ∃ o' j, k = ix2 o' j := ⟨k 0, k 1, eq_ix2 k⟩
    exact ⟨j, ((colScatter_resultIdx?_eq_some wf idx o' j o c).mp hk).1⟩

/-- The same for any dimension numbers whose fields are those of a scatter of columns. -/
theorem scatter_col_set_apply_of {O N R w : Nat} (d : ScatterDims ⟨2, ![O, N]⟩ ⟨2, ![R, 1]⟩ ⟨2, ![O, R]⟩)
    (h1 : d.updateWindowDims = [0]) (h2 : d.insertedWindowDims = [1]) (h3 : d.scatterDimsToOperandDims = [1])
    (h4 : d.indexVectorDim = 1)
    (x : (⟨2, ![O, N]⟩ : Shape).Idx → α) (idx : IVec ⟨2, ![R, 1]⟩ w) (upd : (⟨2, ![O, R]⟩ : Shape).Idx → α)
    (hinj : ∀ j j' : Fin R, (idx (ix2 j (0 : Fin 1))).toInt = (idx (ix2 j' (0 : Fin 1))).toInt → j = j')
    (o : Fin O) (c : Fin N) :
    Host.scatter d (fun _ b => b) x idx upd (ix2 o c)
      = if h : ∃ j : Fin R, (idx (ix2 j (0 : Fin 1))).toInt = (c.val : Int) then upd (ix2 o h.choose)
        else x (ix2 o c) := by
  obtain ⟨uw, iw, sd, iv, wf⟩ := d
  dsimp only at h1 h2 h3 h4
  subst h1 h2 h3 h4
  exact scatter_col_set_apply wf x idx upd hinj o c

end ColScatter

/-! ## A scatter that sets scalars of a vector -/

section VecScatter
variable {α : Type}

/-- The dimension numbers of a scatter of scalars into a vector: operand `[N]`, scatter indices `[R, 1]`, updates
    `[R]`; the operand's one axis is inserted and indexed, the updates have no window axis. -/
abbrev vecSetDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `j`'s one-element window starts at the scatter index `idx[j, 0]` read signed. -/
theorem vecSet_start {N R w : Nat}
    (wf : ScatterDims.WF ⟨1, ![N]⟩ ⟨2, ![R, 1]⟩ ⟨1, ![R]⟩ [] [0] [0] 1)
    (idx : IVec ⟨2, ![R, 1]⟩ w) (j : Fin R) :
    (vecSetDims N R wf).start (ix1 j) idx (0 : Fin 1) = (idx (ix2 j (0 : Fin 1))).toInt := by
  unfold ScatterDims.start
  rw [dif_pos (show (0 : Fin 1) ∈ (vecSetDims N R wf).scatterDimsToOperandDims from List.mem_singleton.mpr rfl)]
  have hsi : (vecSetDims N R wf).siIdx (ix1 j) ⟨List.idxOf (0 : Fin 1) (vecSetDims N R wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The window coordinate on the operand's one, inserted axis is zero. -/
theorem vecSet_window {N R : Nat}
    (wf : ScatterDims.WF ⟨1, ![N]⟩ ⟨2, ![R, 1]⟩ ⟨1, ![R]⟩ [] [0] [0] 1)
    (k : (⟨1, ![R]⟩ : Shape).Idx) :
    (vecSetDims N R wf).window k (0 : Fin 1) = 0 := by
  unfold ScatterDims.window
  exact dif_neg (fun h => ((mem_kept_iff _ _).mp h) (List.mem_singleton.mpr rfl))

/-- Update `j` lands on operand element `c` exactly when its scatter index, read signed, is `c`. -/
theorem vecSet_resultIdx?_eq_some {N R w : Nat}
    (wf : ScatterDims.WF ⟨1, ![N]⟩ ⟨2, ![R, 1]⟩ ⟨1, ![R]⟩ [] [0] [0] 1)
    (idx : IVec ⟨2, ![R, 1]⟩ w) (j : Fin R) (c : Fin N) :
    (vecSetDims N R wf).resultIdx? (ix1 j) idx = some (ix1 c)
      ↔ (idx (ix2 j (0 : Fin 1))).toInt = (c.val : Int) := by
  have hs0 := vecSet_start wf idx j
  have hw0 := vecSet_window wf (ix1 j)
  have hc := c.isLt
  unfold ScatterDims.resultIdx?
  split
  · rename_i h
    rw [Option.some.injEq]
    constructor
    · intro hf
      have h0 : ((vecSetDims N R wf).start (ix1 j) idx (0 : Fin 1)
          + ((vecSetDims N R wf).window (ix1 j) (0 : Fin 1) : Int)).toNat = c.val :=
        congrArg Fin.val (congrFun hf (0 : Fin 1))
      have hh := (h (0 : Fin 1)).1
      rw [hs0, hw0] at h0 hh
      omega
    · intro hc'
      funext a
      refine Fin.ext ?_
      match a with
      | ⟨0, _⟩ =>
        show ((vecSetDims N R wf).start (ix1 j) idx (0 : Fin 1)
          + ((vecSetDims N R wf).window (ix1 j) (0 : Fin 1) : Int)).toNat = c.val
        rw [hs0, hw0, hc']; omega
  · rename_i h
    refine iff_of_false (by simp) ?_
    intro hc'
    apply h
    intro a
    match a with
    | ⟨0, _⟩ =>
      show 0 ≤ (vecSetDims N R wf).start (ix1 j) idx (0 : Fin 1)
          + ((vecSetDims N R wf).window (ix1 j) (0 : Fin 1) : Int)
        ∧ (vecSetDims N R wf).start (ix1 j) idx (0 : Fin 1)
          + ((vecSetDims N R wf).window (ix1 j) (0 : Fin 1) : Int) < (N : Int)
      rw [hs0, hw0, hc']; omega

/-- THE SCALAR SCATTER THAT SETS, READ AT `c`, the scatter indices pairwise distinct as signed integers: the update
    whose scatter index is `c` when there is one, else the operand's element (an update whose index is not a position
    of the vector is dropped). -/
theorem scatter_vec_set_apply {N R w : Nat}
    (wf : ScatterDims.WF ⟨1, ![N]⟩ ⟨2, ![R, 1]⟩ ⟨1, ![R]⟩ [] [0] [0] 1)
    (x : (⟨1, ![N]⟩ : Shape).Idx → α) (idx : IVec ⟨2, ![R, 1]⟩ w) (upd : (⟨1, ![R]⟩ : Shape).Idx → α)
    (hinj : ∀ j j' : Fin R, (idx (ix2 j (0 : Fin 1))).toInt = (idx (ix2 j' (0 : Fin 1))).toInt → j = j')
    (c : Fin N) :
    Host.scatter (vecSetDims N R wf) (fun _ b => b) x idx upd (ix1 c)
      = if h : ∃ j : Fin R, (idx (ix2 j (0 : Fin 1))).toInt = (c.val : Int) then upd (ix1 h.choose)
        else x (ix1 c) := by
  by_cases h : ∃ j : Fin R, (idx (ix2 j (0 : Fin 1))).toInt = (c.val : Int)
  · rw [dif_pos h]
    refine scatter_set_apply_of_hit _ x idx upd (ix1 c) _ ?_ ?_
    · intro k hk
      obtain ⟨j, rfl⟩ : ∃ j, k = ix1 j := ⟨k 0, eq_ix1 k⟩
      have hj := (vecSet_resultIdx?_eq_some wf idx j c).mp hk
      rw [hinj j h.choose (hj.trans h.choose_spec.symm)]
    · exact ⟨ix1 h.choose, (vecSet_resultIdx?_eq_some wf idx h.choose c).mpr h.choose_spec⟩
  · rw [dif_neg h]
    refine scatter_set_apply_of_miss _ x idx upd (ix1 c) (fun k hk => h ?_)
    obtain ⟨j, rfl⟩ : ∃ j, k = ix1 j := ⟨k 0, eq_ix1 k⟩
    exact ⟨j, (vecSet_resultIdx?_eq_some wf idx j c).mp hk⟩

/-- The same for any dimension numbers whose fields are those of a scatter of scalars into a vector. -/
theorem scatter_vec_set_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → α) (idx : IVec ⟨2, ![R, 1]⟩ w) (upd : (⟨1, ![R]⟩ : Shape).Idx → α)
    (hinj : ∀ j j' : Fin R, (idx (ix2 j (0 : Fin 1))).toInt = (idx (ix2 j' (0 : Fin 1))).toInt → j = j')
    (c : Fin N) :
    Host.scatter d (fun _ b => b) x idx upd (ix1 c)
      = if h : ∃ j : Fin R, (idx (ix2 j (0 : Fin 1))).toInt = (c.val : Int) then upd (ix1 h.choose)
        else x (ix1 c) := by
  obtain ⟨uw, iw, sd, iv, wf⟩ := d
  dsimp only at h1 h2 h3 h4
  subst h1 h2 h3 h4
  exact scatter_vec_set_apply wf x idx upd hinj c

end VecScatter

end Idealize.ShloMosaic.LibCols
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.RefValue.lean ====
/-
  What the reference computes: the row-wise softmax of the logits written diffusion-first (`logitsRefArr`).
-/
import proofs.«404574_j14869176779094_2_alg».proof.Proof.Common
import proofs.«404574_j14869176779094_2_alg».proof.Proof.LibCols
import proofs.«404574_j14869176779094_2_alg».proof.Proof.LibDot
import proofs.«404574_j14869176779094_2_alg».proof.Proof.Gen.ReferenceIdeal.Run
import proofs.«404574_j14869176779094_2_alg».proof.Proof.Gen.ReferenceIdeal.Read
import Idealize.ShloMosaic.Lib.IdealHost

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Read Cert.Diffuse

/-- The gather's start word at arc `e`: the source word brought into range. -/
theorem ref_v37_apply (x1 : IVec ⟨2, ![2, 640000]⟩ 32) (e : Fin 660000) :
    val_main_v37 (F := Ideal) x1 (ix2 e (0 : Fin 1)) = normw (srcw x1 e) := by
  rw [val_main_v37_apply]
  have : idx_main_v37 (ix2 e (0 : Fin 1)) = ix1 e := funext fun a => Fin.ext (by match a with | ⟨0, _⟩ => rfl)
  rw [this, v36_apply]

/-- The gathered feature at row `b`, arc `e`. -/
theorem ref_v38_apply (x0 : FVec Ideal ⟨2, ![128, 20000]⟩ .f32) (x1 : IVec ⟨2, ![2, 640000]⟩ 32)
    (b : Fin 128) (e : Fin 660000) :
    val_main_v38 (F := Ideal) x0 x1 (ix2 b e) = x0 (ix2 b (gix (srcw x1 e))) := by
  unfold val_main_v38
  refine (Idealize.ShloMosaic.LibCols.gather_col_apply_of (by norm_num : 0 < 20000)
    gather_S128x20000_S660000x1_S128x660000_0_1_n_n_1_1_1281 rfl rfl rfl rfl rfl rfl rfl x0
    (val_main_v37 (F := Ideal) x1) b e).trans ?_
  refine congrArg x0 (congrArg (ix2 b) (Fin.ext ?_))
  show min (val_main_v37 (F := Ideal) x1 (ix2 e (0 : Fin 1))).toInt.toNat (20000 - 1)
    = min (normw (srcw x1 e)).toInt.toNat (20000 - 1)
  rw [ref_v37_apply]

/-- The normalized weight spread over the rows, at row `b`, arc `e`. -/
theorem ref_v40_apply (x1 : IVec ⟨2, ![2, 640000]⟩ 32) (x2 : FVec Ideal ⟨1, ![640000]⟩ .f32)
    (b : Fin 128) (e : Fin 660000) :
    val_main_v40 (F := Ideal) x1 x2 (ix2 b e) = wn (srcw x1) (dstw x1) (wfv x2) e := by
  rw [val_main_v40_apply, val_main_v39_apply]
  have : idx_main_v39 (idx_main_v40 (ix2 b e)) = ix1 e := funext fun a => Fin.ext (by match a with | ⟨0, _⟩ => rfl)
  rw [this, v31_apply]

/-- The weighted gathered feature, transposed: at arc `e`, row `b`. -/
theorem ref_v42_apply (x0 : FVec Ideal ⟨2, ![128, 20000]⟩ .f32) (x1 : IVec ⟨2, ![2, 640000]⟩ 32)
    (x2 : FVec Ideal ⟨1, ![640000]⟩ .f32) (e : Fin 660000) (b : Fin 128) :
    val_main_v42 (F := Ideal) x0 x1 x2 (ix2 e b)
      = x0 (ix2 b (gix (srcw x1 e))) * wn (srcw x1) (dstw x1) (wfv x2) e := by
  rw [val_main_v42_apply]
  have : idx_main_v42 (ix2 e b) = ix2 b e :=
    funext fun a => Fin.ext (by match a with | ⟨0, _⟩ => rfl | ⟨1, _⟩ => rfl)
  rw [this, val_main_v41_apply, Ideal.mulf_def, ref_v38_apply, ref_v40_apply]

/-- The target word of arc `e` as the scatter's index. -/
theorem ref_v44_apply (x1 : IVec ⟨2, ![2, 640000]⟩ 32) (e : Fin 660000) :
    val_main_v44 (F := Ideal) x1 (ix2 e (0 : Fin 1)) = dstw x1 e := by
  rw [val_main_v44_apply]
  have : idx_main_v44 (ix2 e (0 : Fin 1)) = ix1 e := funext fun a => Fin.ext (by match a with | ⟨0, _⟩ => rfl)
  rw [this, v6_apply]

/-- The scatter-add at node `n`, row `b`: the diffused feature. -/
theorem ref_v45_apply (x0 : FVec Ideal ⟨2, ![128, 20000]⟩ .f32) (x1 : IVec ⟨2, ![2, 640000]⟩ 32)
    (x2 : FVec Ideal ⟨1, ![640000]⟩ .f32) (n : Fin 20000) (b : Fin 128) :
    val_main_v45 (F := Ideal) x0 x1 x2 (ix2 n b)
      = diffused x0 (srcw x1) (dstw x1) (wn (srcw x1) (dstw x1) (wfv x2)) b n := by
  unfold val_main_v45
  refine (Cert.LibIndex.scatterAdd_row_apply_of scatter_S20000x128_S660000x1_S660000x128_1_0_0_1 rfl rfl rfl rfl
    (val_main_v43 (F := Ideal)) (val_main_v44 (F := Ideal) x1) (val_main_v42 (F := Ideal) x0 x1 x2) n b).trans ?_
  have h43 : val_main_v43 (F := Ideal) (ix2 n b) = 0 := by
    rw [val_main_v43_apply, val_main_cst_8_apply, Ideal.ofBits_def, Ideal.ofBits_zero_f32]
  rw [h43, zero_add]
  unfold diffused
  refine Finset.sum_congr rfl fun e _ => ?_
  rw [ref_v44_apply, ref_v42_apply]

/-- The logits before the softmax, at an index: the reference's `%51`. -/
theorem logits_eq (x0 : FVec Ideal ⟨2, ![128, 20000]⟩ .f32) (x1 : IVec ⟨2, ![2, 640000]⟩ 32)
    (x2 : FVec Ideal ⟨1, ![640000]⟩ .f32) (x3 : FVec Ideal ⟨2, ![30, 20000]⟩ .f32) (x4 : FVec Ideal ⟨1, ![30]⟩ .f32) :
    val_main_v51 (F := Ideal) x0 x1 x2 x3 x4
      = logitsRefArr x0 x3 x4 (srcw x1) (dstw x1) (wn (srcw x1) (dstw x1) (wfv x2)) := by
  funext i
  obtain ⟨b, c, rfl⟩ : ∃ (b : Fin 128) (c : Fin 30), i = ix2 b c := ⟨i 0, i 1, eq_ix2 i⟩
  show val_main_v51 (F := Ideal) x0 x1 x2 x3 x4 (ix2 b c)
    = logitsRef x0 x3 x4 (srcw x1) (dstw x1) (wn (srcw x1) (dstw x1) (wfv x2)) b c
  rw [val_main_v51_apply, Ideal.addf_def, val_main_v48_apply]
  unfold logitsRef
  refine congrArg₂ (· + ·) ?_ ?_
  · refine Finset.sum_congr rfl fun k _ => ?_
    have hl : lidx_main_v48 (ix2 b c) k = ix2 b k :=
      funext fun a => Fin.ext (by match a with | ⟨0, _⟩ => rfl | ⟨1, _⟩ => rfl)
    have hr : ridx_main_v48 (ix2 b c) k = ix2 k c :=
      funext fun a => Fin.ext (by match a with | ⟨0, _⟩ => rfl | ⟨1, _⟩ => rfl)
    have h46 : idx_main_v46 (ix2 b k) = ix2 k b :=
      funext fun a => Fin.ext (by match a with | ⟨0, _⟩ => rfl | ⟨1, _⟩ => rfl)
    have h47 : idx_main_v47 (ix2 k c) = ix2 c k :=
      funext fun a => Fin.ext (by match a with | ⟨0, _⟩ => rfl | ⟨1, _⟩ => rfl)
    rw [hl, hr, val_main_v46_apply, val_main_v47_apply, h46, h47, ref_v45_apply]
  · rw [val_main_v50_apply, val_main_v49_apply]
    exact congrArg x4 (funext fun a => Fin.ext (by match a with | ⟨0, _⟩ => rfl))

/-- The reference's last eleven operations are the row-wise softmax of its logits. -/
theorem softmax_eq (x0 : FVec Ideal ⟨2, ![128, 20000]⟩ .f32) (x1 : IVec ⟨2, ![2, 640000]⟩ 32)
    (x2 : FVec Ideal ⟨1, ![640000]⟩ .f32) (x3 : FVec Ideal ⟨2, ![30, 20000]⟩ .f32) (x4 : FVec Ideal ⟨1, ![30]⟩ .f32) :
    val_main_v62 (F := Ideal) x0 x1 x2 x3 x4 = softmaxTail (val_main_v51 (F := Ideal) x0 x1 x2 x3 x4) := by
  unfold val_main_v62 val_main_v61 val_main_v60 val_main_v59 val_main_v58 val_main_v57 val_main_v56 val_main_v55
    val_main_v54 val_main_v53 val_main_v52 val_main_cst_9 val_main_cst_10 val_main_cst_11 softmaxTail
  generalize val_main_v51 (F := Ideal) x0 x1 x2 x3 x4 = l
  rfl

/-- The reference's result is the softmax of those logits. -/
theorem ref_value (m : (ℓ : Loc nD τ sig) → Buf (Elt Ideal) ℓ) (c : Dev nD) :
    Cert.ReferenceIdeal.Value.res_main_v62 m c
      = softmaxTail (logitsRefArr (m ((c.tc : Thread nD τ).loc main_arg0)) (m ((c.tc : Thread nD τ).loc main_arg3))
          (m ((c.tc : Thread nD τ).loc main_arg4)) (srcw (m ((c.tc : Thread nD τ).loc main_arg1)))
          (dstw (m ((c.tc : Thread nD τ).loc main_arg1)))
          (wn (srcw (m ((c.tc : Thread nD τ).loc main_arg1))) (dstw (m ((c.tc : Thread nD τ).loc main_arg1)))
            (wfv (m ((c.tc : Thread nD τ).loc main_arg2))))) := by
  rw [val_main_v62_eq, softmax_eq, logits_eq]

end Cert.ReferenceIdeal.RefValue

end
-- ==== Proof.KerArrays.lean ====
/-
  Names, at their literal types, for the kernel program's five argument arrays and for the three arrays its region
  reads as the host operations before it leave them.
-/
import proofs.«404574_j14869176779094_2_alg».proof.Proof.Gen.KernelIdeal.Frame
import Idealize.ShloMosaic.PureOps.Ideal

noncomputable section

namespace Cert.KernelIdeal.Arr

open Idealize.ShloMosaic Idealize.ShloMosaic.TcCoe Idealize.SL.Sem
open Cert.KernelIdeal Cert.KernelIdeal.Gen

variable (m : (ℓ : Loc nD τ sig) → Buf (Elt Ideal) ℓ)

/-- The features `x`, the arc table, the arc weights, the dense layer's weights and its bias. -/
abbrev X (c : Dev nD) : FVec Ideal S128x20000 .f32 := m ((c.tc : Thread nD τ).loc main_arg0)
abbrev EI (c : Dev nD) : IVec S2x640000 32 := m ((c.tc : Thread nD τ).loc main_arg1)
abbrev EW (c : Dev nD) : FVec Ideal S640000 .f32 := m ((c.tc : Thread nD τ).loc main_arg2)
abbrev FW (c : Dev nD) : FVec Ideal S30x20000 .f32 := m ((c.tc : Thread nD τ).loc main_arg3)
abbrev FB (c : Dev nD) : FVec Ideal S30 .f32 := m ((c.tc : Thread nD τ).loc main_arg4)

/-- The region's three input arrays: the padded features, the padded folded weights, the padded bias row. -/
abbrev xpad (c : Dev nD) : FVec Ideal S128x20480 .bf16 := V m c main_v49
abbrev w2pad (c : Dev nD) : FVec Ideal S20480x128 .bf16 := V m c main_v47
abbrev bpad (c : Dev nD) : FVec Ideal S1x128 .f32 := V m c main_v51

end Cert.KernelIdeal.Arr

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KerRegion.lean ====
/-
  What the kernel's region leaves in its result array: entry `(a, b)` is the sum over all 20480 columns `n` of the padded
  features at `(a, n)` times the padded weights at `(n, b)`, plus the padded bias at `b`.

  The grid has ten points; point `t` reads columns `2048 t … 2048 t + 2047` of the features and the same rows of the
  weights. A scratch accumulator is reset to zero at point 0, receives at every point the product of the two blocks, and
  at point 9 the accumulator plus the bias row is stored into the result block, which is the whole result array.
-/
import proofs.«404574_j14869176779094_2_alg».proof.Proof.KerArrays
import proofs.«404574_j14869176779094_2_alg».proof.Proof.LibDot
import proofs.«404574_j14869176779094_2_alg».proof.Proof.LibAcc
import proofs.«404574_j14869176779094_2_alg».proof.Proof.LibBlockSum
import Idealize.ShloMosaic.Lib.Pipeline.Value
import Idealize.ShloMosaic.Lib.ValueIdx
import Idealize.ShloMosaic.Lib.ValueLayout
import Idealize.ShloMosaic.Lib.Tactic

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Arr

/-! ## What each case of the body leaves

The body has three cases: the first point (the scratch is reset, then updated), the points strictly between the first and
the last (the scratch is updated), and the last point (the scratch is updated, and the scratch plus the bias row is
stored into the result block). In every case the stores cover the whole block, so what is left is the last store's
payload, over whole-block loads. -/

/-- The zero offsets of a whole-block access. -/
theorem hz : (![0, 0] : Fin 2 → Nat) = fun _ => 0 := funext fun a => by fin_cases a <;> rfl

section pieces
variable {F : FTy → Type} [FloatOps F]

/-- Between the first and the last point the scratch, holding `xs0`, is left at `xs0` plus the product of the blocks. -/
theorem sout_B (c : Dev nD) (i : grid0.Coords) (arg1 : Memref sig .tc .vmem S128x2048 .bf16) (harg1 : arg1.IsWhole) (arg2 : Memref sig .tc .vmem S2048x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : ¬cond0_1 i)
    (x0 : Vec F S128x2048 .bf16) (x1 : Vec F S2048x128 .bf16) (x2 : Vec F S1x128 .f32) (xs0 : Vec F S128x128 .f32) :
    sout0_B_0 c i arg1 harg1 arg2 harg2 arg3 harg3 arg4 harg4 arg5 harg5 hc0 hc1 x0 x1 x2 xs0 = k0_pay2 xs0 x0 x1 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg5.read_unread,
    View.ld_unit_zero (S := S128x128) hz, View.ld_unit_zero (S := S128x2048) hz, View.ld_unit_zero (S := S2048x128) hz]

/-- At the last point the scratch is left the same way. -/
theorem sout_C (c : Dev nD) (i : grid0.Coords) (arg1 : Memref sig .tc .vmem S128x2048 .bf16) (harg1 : arg1.IsWhole) (arg2 : Memref sig .tc .vmem S2048x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S128x2048 .bf16) (x1 : Vec F S2048x128 .bf16) (x2 : Vec F S1x128 .f32) (xs0 : Vec F S128x128 .f32) :
    sout0_C_0 c i arg1 harg1 arg2 harg2 arg3 harg3 arg4 harg4 arg5 harg5 hc0 hc1 x0 x1 x2 xs0 = k0_pay2 xs0 x0 x1 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg5.read_unread,
    View.ld_unit_zero (S := S128x128) hz, View.ld_unit_zero (S := S128x2048) hz, View.ld_unit_zero (S := S2048x128) hz]

/-- At the last point the result block is left at the updated scratch plus the bias row. -/
theorem out_C (c : Dev nD) (i : grid0.Coords) (arg1 : Memref sig .tc .vmem S128x2048 .bf16) (harg1 : arg1.IsWhole) (arg2 : Memref sig .tc .vmem S2048x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (hc0 : ¬cond0_0 i) (hc1 : cond0_1 i)
    (x0 : Vec F S128x2048 .bf16) (x1 : Vec F S2048x128 .bf16) (x2 : Vec F S1x128 .f32) (xs0 : Vec F S128x128 .f32) :
    out0_C_3 c i arg1 harg1 arg2 harg2 arg3 harg3 arg4 harg4 arg5 harg5 hc0 hc1 x0 x1 x2 xs0 = k0_pay3 (k0_pay2 xs0 x0 x1) x2 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S128x128) hz, View.ld_unit_zero (S := S128x2048) hz, View.ld_unit_zero (S := S2048x128) hz,
    View.ld_unit_zero (S := S1x128) hz, View.readCov_unit_zero (S := S128x128) _ hz]

/-- At the first point the scratch is left at the zero block plus the product of the blocks. -/
theorem sout_A (c : Dev nD) (i : grid0.Coords) (arg1 : Memref sig .tc .vmem S128x2048 .bf16) (harg1 : arg1.IsWhole) (arg2 : Memref sig .tc .vmem S2048x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (hc0 : cond0_0 i) (hc1 : ¬cond0_1 i)
    (x0 : Vec F S128x2048 .bf16) (x1 : Vec F S2048x128 .bf16) (x2 : Vec F S1x128 .f32) :
    sout0_A_0 c i arg1 harg1 arg2 harg2 arg3 harg3 arg4 harg4 arg5 harg5 hc0 hc1 x0 x1 x2 = k0_pay2 (k0_pay1 (F := F)) x0 x1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S128x128) hz, View.readCov_unit_zero (S := S128x128) _ hz]
  simp only [View.readAt_eq_ld, harg1.read_unread, harg2.read_unread,
    View.ld_unit_zero (S := S128x2048) hz, View.ld_unit_zero (S := S2048x128) hz]

end pieces

/-! ## The three payloads at an entry, over the extended reals -/

/-- The update: the accumulator's entry plus the sum over the block's 2048 columns of the products. -/
theorem pay2_apply (v3 : FVec Ideal S128x128 .f32) (v4 : FVec Ideal S128x2048 .bf16) (v6 : FVec Ideal S2048x128 .bf16)
    (a b : Fin 128) :
    k0_pay2 (F := Ideal) v3 v4 v6 (ix2 a b) = v3 (ix2 a b) + ∑ k : Fin 2048, v4 (ix2 a k) * v6 (ix2 k b) := by
  unfold k0_pay2
  simp only [shapeCast_self]
  show FloatOps.addf (v3 (ix2 a b)) (matmul dot_S128x2048_S2048x128_S128x128_1_0_0_1_n_n none v4 v6 (constant S128x128 .f32 0x00000000#32) (ix2 a b)) = _
  rw [Ideal.addf_def, Cert.LibDot.matmul_zero_apply dot_S128x2048_S2048x128_S128x128_1_0_0_1_n_n rfl rfl rfl rfl rfl rfl]

/-- The reset: zero. -/
theorem pay1_apply (a b : Fin 128) : k0_pay1 (F := Ideal) (ix2 a b) = 0 := by
  unfold k0_pay1
  simp only [shapeCast_self]
  show Ideal.ofBits .f32 0x00000000#32 = 0
  exact Ideal.ofBits_zero_f32

/-- The last store: the accumulator's entry plus the bias row's entry in the same column. -/
theorem pay3_apply (v16 : FVec Ideal S128x128 .f32) (v17 : FVec Ideal S1x128 .f32) (a b : Fin 128) :
    k0_pay3 (F := Ideal) v16 v17 (ix2 a b) = v16 (ix2 a b) + v17 (ix2 (0 : Fin 1) b) := by
  unfold k0_pay3
  simp only [shapeCast_self]
  show FloatOps.addf (v16 (ix2 a b)) (broadcastTo S128x128 v17 broadcasts_S1x128_S128x128 (ix2 a b)) = _
  rw [Ideal.addf_def, broadcastTo_apply v17 broadcasts_S1x128_S128x128 (ix2 a b) (ix2 (0 : Fin 1) b)]
  intro x
  match x with
  | ⟨0, _⟩ => rfl
  | ⟨1, _⟩ => rfl

variable (m : (ℓ : Loc nD τ sig) → Buf (Elt Ideal) ℓ)

/-! ## The blocks a point reads -/

/-- The three blocks point `t` reads, at their literal types. -/
abbrev xblk (c : Dev nD) (t : Fin cfg0.N) : FVec Ideal S128x2048 .bf16 := iblk m c 0 t
abbrev wblk (c : Dev nD) (t : Fin cfg0.N) : FVec Ideal S2048x128 .bf16 := iblk m c 1 t
abbrev bblk (c : Dev nD) (t : Fin cfg0.N) : FVec Ideal S1x128 .f32 := iblk m c 2 t

/-- Column `k` of block `t` is a column of the padded arrays. -/
theorem col_lt (t : Fin cfg0.N) (k : Fin 2048) : 2048 * t.val + k.val < 20480 := by
  have hN : t.val < 10 := lt_of_lt_of_eq t.isLt (show cfg0.N = 10 from N_0)
  have := k.isLt
  omega

/-- The block indices of the three input windows at point `t`. -/
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- The features' block at point `t` reads the padded features at columns `2048 t + k`. -/
theorem xblk_apply (c : Dev nD) (t : Fin cfg0.N) (a : Fin 128) (k : Fin 2048) :
    xblk m c t (ix2 a k) = xpad m c (ix2 a ⟨2048 * t.val + k.val, col_lt t k⟩) := by
  unfold xblk iblk
  rw [View.read_apply]
  show V m c main_v49 _ = V m c main_v49 _
  congr 1
  funext x
  apply Fin.ext
  match x with
  | ⟨0, _⟩ => show win0_0.index t 0 * 128 + 1 * a.val = a.val; rw [(idx0 t).1]; omega
  | ⟨1, _⟩ => show win0_0.index t 1 * 2048 + 1 * k.val = 2048 * t.val + k.val; rw [(idx0 t).2]; omega

/-- The weights' block at point `t` reads the padded weights at rows `2048 t + k`. -/
theorem wblk_apply (c : Dev nD) (t : Fin cfg0.N) (k : Fin 2048) (b : Fin 128) :
    wblk m c t (ix2 k b) = w2pad m c (ix2 ⟨2048 * t.val + k.val, col_lt t k⟩ b) := by
  unfold wblk iblk
  rw [View.read_apply]
  show V m c main_v47 _ = V m c main_v47 _
  congr 1
  funext x
  apply Fin.ext
  match x with
  | ⟨0, _⟩ => show win0_1.index t 0 * 2048 + 1 * k.val = 2048 * t.val + k.val; rw [(idx1 t).1]; omega
  | ⟨1, _⟩ => show win0_1.index t 1 * 128 + 1 * b.val = b.val; rw [(idx1 t).2]; omega

/-- The bias block at every point is the padded bias row. -/
theorem bblk_apply (c : Dev nD) (t : Fin cfg0.N) (b : Fin 128) :
    bblk m c t (ix2 (0 : Fin 1) b) = bpad m c (ix2 (0 : Fin 1) b) := by
  unfold bblk iblk
  rw [View.read_apply]
  show V m c main_v51 _ = V m c main_v51 _
  congr 1
  funext x
  apply Fin.ext
  match x with
  | ⟨0, _⟩ => show win0_2.index t 0 * 1 + 1 * 0 = 0; rw [(idx2 t).1]
  | ⟨1, _⟩ => show win0_2.index t 1 * 128 + 1 * b.val = b.val; rw [(idx2 t).2]; omega

/-! ## The accumulator -/

/-- A point of one stretch of ten is a point of the grid. -/
theorem lt_N {n : ℕ} (hn : n < 1 * 10) : n < cfg0.N := by
  rw [show cfg0.N = 10 from N_0]; omega

/-- The scratch after point `n`, at entry `(a, b)`. -/
def accAt (c : Dev nD) (a b : Fin 128) (n : ℕ) (hn : n < 1 * 10) : EReal :=
  (outsAt0 m c n (lt_N hn)).2 (ix2 a b)

/-- Point `n`'s term at entry `(a, b)`: the product of its two blocks there. -/
def termAt (c : Dev nD) (a b : Fin 128) (n : ℕ) (hn : n < 1 * 10) : EReal :=
  ∑ k : Fin 2048, xblk m c ⟨n, lt_N hn⟩ (ix2 a k) * wblk m c ⟨n, lt_N hn⟩ (ix2 k b)

/-- At the first point the scratch is left at zero plus the point's term. -/
theorem acc_reset (c : Dev nD) (a b : Fin 128) (n : ℕ) (hn : n < 1 * 10) (h : n % 10 = 0) :
    accAt m c a b n hn = 0 + termAt m c a b n hn := by
  have h1 : ¬(⟨n, lt_N hn⟩ : Fin cfg0.N).val % 10 = 9 := by dsimp only; omega
  unfold accAt termAt
  rw [show outsAt0 m c n (lt_N hn) = outsAt0 m c (⟨n, lt_N hn⟩ : Fin cfg0.N).val (⟨n, lt_N hn⟩ : Fin cfg0.N).isLt from rfl,
    outsAt0_A m c ⟨n, lt_N hn⟩ h h1]
  dsimp only
  rw [sout_A, pay2_apply, pay1_apply]

/-- At every later point the scratch is left at what the point before left plus the point's term. -/
theorem acc_step (c : Dev nD) (a b : Fin 128) (n : ℕ) (hn : n < 1 * 10) (h : n % 10 ≠ 0) :
    accAt m c a b n hn = accAt m c a b (n - 1) (by omega) + termAt m c a b n hn := by
  unfold accAt termAt
  by_cases h1 : n % 10 = 9
  · rw [show outsAt0 m c n (lt_N hn) = outsAt0 m c (⟨n, lt_N hn⟩ : Fin cfg0.N).val (⟨n, lt_N hn⟩ : Fin cfg0.N).isLt from rfl,
      outsAt0_C m c ⟨n, lt_N hn⟩ h h1]
    dsimp only
    rw [sout_C, pay2_apply]
  · rw [show outsAt0 m c n (lt_N hn) = outsAt0 m c (⟨n, lt_N hn⟩ : Fin cfg0.N).val (⟨n, lt_N hn⟩ : Fin cfg0.N).isLt from rfl,
      outsAt0_B m c ⟨n, lt_N hn⟩ h h1]
    dsimp only
    rw [sout_B, pay2_apply]

/-- The scratch after the last point: the sum of the ten terms. -/
theorem acc_final (c : Dev nD) (a b : Fin 128) :
    accAt m c a b 9 (by omega) = ∑ i : Fin 10, termAt m c a b i.val (by omega) := by
  have e := Cert.LibAcc.acc_last_zero 10 1 (accAt m c a b) (termAt m c a b) 0 rfl
    (acc_reset m c a b) (acc_step m c a b) (by omega) (0 : Fin 1)
  refine (Cert.LibAcc.acc_congr 10 1 (accAt m c a b) (by simp) _ _).trans (e.trans ?_)
  refine Finset.sum_congr rfl fun i _ => ?_
  exact Cert.LibAcc.acc_congr 10 1 (termAt m c a b) (by simp) _ _

/-! ## The result block after the last point -/

/-- The result array after the region, as a function of the three arrays the region reads. -/
def outArr (c : Dev nD) : Buf (Elt Ideal) ((c : Thread nD τ).loc main_v52) := fun i =>
  (∑ n : Fin 20480, xpad m c (ix2 (i 0) n) * w2pad m c (ix2 n (i 1))) + bpad m c (ix2 (0 : Fin 1) (i 1))

/-- A point's term over the padded arrays: the columns `2048 t … 2048 t + 2047`. -/
theorem termAt_eq (c : Dev nD) (a b : Fin 128) (i : Fin 10) :
    termAt m c a b i.val (by omega)
      = ∑ k : Fin 2048, xpad m c (ix2 a (Cert.LibBlockSum.blockIdx (B := 10) (R := 2048) (N := 20480) (by norm_num) i k))
          * w2pad m c (ix2 (Cert.LibBlockSum.blockIdx (B := 10) (R := 2048) (N := 20480) (by norm_num) i k) b) := by
  unfold termAt
  refine Finset.sum_congr rfl fun k _ => ?_
  rw [xblk_apply, wblk_apply]
  rfl

/-- After the last point the result block's staging buffer holds the result: the scratch, which is the sum of the ten
    terms, that is the sum over all 20480 columns, plus the bias row. -/
theorem out_last (c : Dev nD) : (outsAt0 m c t0_9.val t0_9.isLt).1 = outArr m c := by
  funext i
  obtain ⟨a, b, rfl⟩ : ∃ (a : Fin 128) (b : Fin 128), i = ix2 a b := ⟨i 0, i 1, eq_ix2 i⟩
  have h0 : ¬t0_9.val % 10 = 0 := by decide
  have h1 : t0_9.val % 10 = 9 := by decide
  have e2 : (outsAt0 m c t0_9.val t0_9.isLt).2 (ix2 a b) = accAt m c a b 9 (by omega) := rfl
  have e1 : (outsAt0 m c t0_9.val t0_9.isLt).1 (ix2 a b)
      = (outsAt0 m c t0_9.val t0_9.isLt).2 (ix2 a b) + bblk m c t0_9 (ix2 (0 : Fin 1) b) := by
    rw [outsAt0_C m c t0_9 h0 h1]
    dsimp only
    rw [out_C, sout_C, pay3_apply]
  rw [e1, e2, acc_final, bblk_apply]
  show _ = (∑ n : Fin 20480, xpad m c (ix2 a n) * w2pad m c (ix2 n b)) + bpad m c (ix2 (0 : Fin 1) b)
  rw [Cert.LibBlockSum.sum_blocks (B := 10) (R := 2048) (N := 20480) (by norm_num)
    (fun n => xpad m c (ix2 a n) * w2pad m c (ix2 n b))]
  exact congrArg (· + bpad m c (ix2 (0 : Fin 1) b)) (Finset.sum_congr rfl fun i _ => termAt_eq m c a b i)

/-! ## The result array -/

/-- The one write-back, at the last point, writes the result: the block is the whole array. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 10 := N_0
  have h9 : t.val = 9 := by have := (flush0_3 t).mp hf; have := t.isLt; omega
  obtain rfl : t = t0_9 := Fin.ext h9
  show (cfg0.win 3).cut (grid0.coords t0_9) ((dats m 0 c).after 3 t0_9) = _
  rw [after0_3, out_last]
  have hz' : (fun a => win0_3.index t0_9 a * main_v52.ty.shape.size a) = fun _ => 0 := funext fun a => by fin_cases a <;> decide
  exact (Memref.read_access_unit_zero (Elt Ideal) main_v52 hz' (fun a => by rw [congrFun hz' a]; simp) (outArr m c)).symm

/-- The region's result array ends holding it. -/
theorem region_out (c : Dev nD) : (dats m 0 c).arrAt 3 cfg0.N = outArr m c :=
  (dats m 0 c).arrAt_eq_of_cover 3 (outArr m c) (flushed_eq m c) fun i =>
    ⟨t0_9, (flush0_3 t0_9).mpr rfl, by
      show i ∈ ((View.whole main_v52).slice (win0_3.rect t0_9)).set
      rw [View.set_slice_whole, Rect.mem_set_unit]
      intro a
      have h0 : (i 0 : Nat) < 128 := (i 0).isLt
      have h1 : (i 1 : Nat) < 128 := (i 1).isLt
      match a with
      | ⟨0, _⟩ => show win0_3.index t0_9 0 * win0_3.size 0 ≤ (i 0 : Nat) ∧ (i 0 : Nat) < win0_3.index t0_9 0 * win0_3.size 0 + win0_3.xsize (grid0.coords t0_9) 0
                  rw [show win0_3.index t0_9 0 * win0_3.size 0 = 0 from by decide +kernel, show win0_3.xsize (grid0.coords t0_9) 0 = 128 from by decide +kernel]; omega
      | ⟨1, _⟩ => show win0_3.index t0_9 1 * win0_3.size 1 ≤ (i 1 : Nat) ∧ (i 1 : Nat) < win0_3.index t0_9 1 * win0_3.size 1 + win0_3.xsize (grid0.coords t0_9) 1
                  rw [show win0_3.index t0_9 1 * win0_3.size 1 = 0 from by decide +kernel, show win0_3.xsize (grid0.coords t0_9) 1 = 128 from by decide +kernel]; omega⟩

end Cert.KernelIdeal.RegionValue

end
-- ==== Proof.KerHost.lean ====
/-
  The three arrays the kernel's region reads, as the host operations before it leave them, at an index:
  the features padded with zero columns up to 20480, the folded weights `W2` padded with zero rows up to 20480 and zero
  columns up to 128, and the bias padded with zeros up to 128 as one row. (The two changes of float format are the
  identity on the extended reals.)

  Each array is first written as one composition of array operations over the program's arguments — for the weights,
  over the source words, the target words brought into range and the normalized weights the reference program also
  computes —, and that composition is then read at an index: a pad with no low and no interior padding reads its
  operand below the operand's extents and the padding value elsewhere; the scatter-add of rows, started from zeros, sums
  over the arcs whose source word is the row; the gather of rows reads the row of the target word's node.
-/
import proofs.«404574_j14869176779094_2_alg».proof.Proof.Common
import proofs.«404574_j14869176779094_2_alg».proof.Proof.KerArrays
import proofs.«404574_j14869176779094_2_alg».proof.Proof.LibIndex
import Idealize.ShloMosaic.Lib.StableHlo.Run
import Idealize.ShloMosaic.Lib.Pipeline.Frame
import Idealize.ShloMosaic.Lib.Pipeline.Value

noncomputable section

open scoped BigOperators

namespace Cert.KernelIdeal.HostValue

open Idealize.ShloMosaic Idealize.ShloMosaic.TcCoe Idealize.ShloMosaic.ValueIdx Idealize.SL.Sem
open Cert.KernelIdeal Cert.KernelIdeal.Gen Cert.KernelIdeal.Arr Cert.Diffuse

variable (m : (ℓ : Loc nD τ sig) → Buf (Elt Ideal) ℓ)

/-! ## A pad with no low and no interior padding, read at an index -/

section Pad
variable {α : Type}

/-- Rank one: the operand below its extent, the padding value from there on. -/
theorem pad1_apply {n N hi : Nat} (x : (⟨1, ![n]⟩ : Shape).Idx → α) {u : Shape} (v : u.Idx → α)
    (h : (⟨1, ![n]⟩ : Shape).Pads (![0] : Fin 1 → Nat) ![hi] ![0] ⟨1, ![N]⟩) (hu : 0 < u.numel) (j : Fin N) :
    pad ⟨1, ![N]⟩ (![0] : Fin 1 → Nat) ![hi] ![0] x v h hu (ix1 j)
      = if hj : j.val < n then x (ix1 (⟨j.val, hj⟩ : Fin n)) else v (Shape.Idx.first hu) := by
  unfold pad
  by_cases hj : j.val < n
  · rw [dif_pos hj, dif_pos]
    · refine congrArg x (funext fun a => Fin.ext ?_)
      match a with
      | ⟨0, _⟩ => show (j.val - 0) / (0 + 1) = j.val; omega
    · intro a
      match a with
      | ⟨0, _⟩ =>
        refine ⟨Nat.zero_le _, ?_, ?_⟩
        · show (j.val - 0) % (0 + 1) = 0; omega
        · show (j.val - 0) / (0 + 1) < n; omega
  · rw [dif_neg hj, dif_neg]
    intro hin
    have h2 : (j.val - 0) / (0 + 1) < n := (hin 0).2.2
    omega

/-- Rank two: the operand where both coordinates are below its extents, the padding value elsewhere. -/
theorem pad2_apply {n0 n1 N0 N1 hi0 hi1 : Nat} (x : (⟨2, ![n0, n1]⟩ : Shape).Idx → α) {u : Shape} (v : u.Idx → α)
    (h : (⟨2, ![n0, n1]⟩ : Shape).Pads (![0, 0] : Fin 2 → Nat) ![hi0, hi1] ![0, 0] ⟨2, ![N0, N1]⟩) (hu : 0 < u.numel)
    (a : Fin N0) (b : Fin N1) :
    pad ⟨2, ![N0, N1]⟩ (![0, 0] : Fin 2 → Nat) ![hi0, hi1] ![0, 0] x v h hu (ix2 a b)
      = if hj : a.val < n0 ∧ b.val < n1 then x (ix2 (⟨a.val, hj.1⟩ : Fin n0) (⟨b.val, hj.2⟩ : Fin n1))
        else v (Shape.Idx.first hu) := by
  unfold pad
  by_cases hj : a.val < n0 ∧ b.val < n1
  · rw [dif_pos hj, dif_pos]
    · refine congrArg x (funext fun d => Fin.ext ?_)
      match d with
      | ⟨0, _⟩ => show (a.val - 0) / (0 + 1) = a.val; omega
      | ⟨1, _⟩ => show (b.val - 0) / (0 + 1) = b.val; omega
    · intro d
      match d with
      | ⟨0, _⟩ =>
        refine ⟨Nat.zero_le _, ?_, ?_⟩
        · show (a.val - 0) % (0 + 1) = 0; omega
        · show (a.val - 0) / (0 + 1) < n0; have := hj.1; omega
      | ⟨1, _⟩ =>
        refine ⟨Nat.zero_le _, ?_, ?_⟩
        · show (b.val - 0) % (0 + 1) = 0; omega
        · show (b.val - 0) / (0 + 1) < n1; have := hj.2; omega
  · rw [dif_neg hj, dif_neg]
    intro hin
    have h0 : (a.val - 0) / (0 + 1) < n0 := (hin 0).2.2
    have h1 : (b.val - 0) / (0 + 1) < n1 := (hin 1).2.2
    exact hj ⟨by omega, by omega⟩

end Pad

/-- The padding value of the three pads: the word zero converted, which is zero. -/
theorem padv_eq : sitofp (F := Ideal) FTy.f32 (constantI S_ 32 0#32) (Shape.Idx.first h_S_) = (0 : EReal) := by
  show (((0#32 : BitVec 32).toInt : ℝ) : EReal) = 0
  rw [show (0#32 : BitVec 32).toInt = 0 from by decide, Int.cast_zero, EReal.coe_zero]

/-! ## The features and the bias as compositions -/

section Terms
open Idealize.ShloMosaic.StableHlo
set_option maxRecDepth 16384
set_option maxHeartbeats 8000000

/-- The bias row: the bias padded with the converted word zero up to 128, as one row. -/
theorem bpad_term (c : Dev nD) : bpad m c
    = broadcastInDim S1x128 ![1] bcast_S128_S1x128_1
        (pad S128 ![0] ![98] ![0] (FB m c) (sitofp (F := Ideal) FTy.f32 (constantI S_ 32 0#32)) pads_S30_S128_0980 h_S_) := by
  show StableHlo.after (List.flatten [hostOps0, hostOps0_1, hostOps0_2, hostOps0_3, hostOps0_4, hostOps0_5, hostOps0_6, hostOps0_7, hostOps0_8]) (fun b => m (c, b)) (Proc.devRef .tc main_v51) = _
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The features: padded with the converted word zero up to 20480 columns, then the change of float format. -/
theorem xpad_term (c : Dev nD) : xpad m c
    = truncf .bf16 (pad S128x20480 ![0, 0] ![0, 480] ![0, 0] (X m c) (sitofp (F := Ideal) FTy.f32 (constantI S_ 32 0#32))
        pads_S128x20000_S128x20480_000_04800 h_S_) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v49) = _
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end Terms

/-! ## The host operations before the region, run in four stretches -/

section Stages
open Idealize.ShloMosaic.StableHlo
set_option maxRecDepth 16384
set_option maxHeartbeats 8000000

/-- The buffers after the first nineteen operations, after the three of the inlined `where`, and after the
    thirty-eight that follow. -/
def G1 (c : Dev nD) : Valuation τ sig (Elt Ideal) := StableHlo.after hostOps0 (fun b => m (c, b))
def G2 (c : Dev nD) : Valuation τ sig (Elt Ideal) := StableHlo.after hostOps0_1 (G1 m c)
def G3 (c : Dev nD) : Valuation τ sig (Elt Ideal) := StableHlo.after hostOps0_2 (G2 m c)

/-- The buffers at the region's entry are the remaining operations run from the third stretch's. -/
theorem V0_eq (c : Dev nD) :
    V0 m c = StableHlo.after (List.flatten [hostOps0_3, hostOps0_4, hostOps0_5, hostOps0_6, hostOps0_7, hostOps0_8]) (G3 m c) := by
  unfold G3 G2 G1
  show StableHlo.after (List.flatten [hostOps0, hostOps0_1, hostOps0_2, hostOps0_3, hostOps0_4, hostOps0_5, hostOps0_6, hostOps0_7, hostOps0_8]) (fun b => m (c, b)) = _
  rw [List.flatten_cons, StableHlo.after_append, List.flatten_cons, StableHlo.after_append, List.flatten_cons, StableHlo.after_append]

-- After the first stretch: the source and target words, the weights, the test that a degree is positive, the inverse
-- square roots of the degrees, the scalar zero and the dense layer's weights are the reference program's arrays.
theorem G1_v5 (c : Dev nD) : G1 m c (Proc.devRef .tc main_v5) = Cert.ReferenceIdeal.Read.val_main_v5 (F := Ideal) (EI m c) := by
  unfold G1; simp only [Gen.hostOps0]; after_results_simp; rfl
theorem G1_v6 (c : Dev nD) : G1 m c (Proc.devRef .tc main_v6) = Cert.ReferenceIdeal.Read.val_main_v6 (F := Ideal) (EI m c) := by
  unfold G1; simp only [Gen.hostOps0]; after_results_simp; rfl
theorem G1_v8 (c : Dev nD) : G1 m c (Proc.devRef .tc main_v8) = Cert.ReferenceIdeal.Read.val_main_v8 (F := Ideal) (EW m c) := by
  unfold G1; simp only [Gen.hostOps0]; after_results_simp; rfl
theorem G1_v13 (c : Dev nD) : G1 m c (Proc.devRef .tc main_v13) = Cert.ReferenceIdeal.Read.val_main_v13 (F := Ideal) (EI m c) (EW m c) := by
  unfold G1; simp only [Gen.hostOps0]; after_results_simp; rfl
theorem G1_v14 (c : Dev nD) : G1 m c (Proc.devRef .tc main_v14) = Cert.ReferenceIdeal.Read.val_main_v14 (F := Ideal) (EI m c) (EW m c) := by
  unfold G1; simp only [Gen.hostOps0]; after_results_simp; rfl
theorem G1_cst2 (c : Dev nD) : G1 m c (Proc.devRef .tc main_cst_2) = Cert.ReferenceIdeal.Read.val_main_cst_2 (F := Ideal) := by
  unfold G1; simp only [Gen.hostOps0]; after_results_simp; rfl
theorem G1_arg3 (c : Dev nD) : G1 m c (Proc.devRef .tc main_arg3) = FW m c := by
  unfold G1; simp only [Gen.hostOps0]; after_results_simp

-- The inlined `where` writes none of them and leaves the inverse square root of a degree where it is positive.
theorem G2_v5 (c : Dev nD) : G2 m c (Proc.devRef .tc main_v5) = Cert.ReferenceIdeal.Read.val_main_v5 (F := Ideal) (EI m c) := by
  unfold G2; simp only [Gen.hostOps0_1]; after_results_simp; exact G1_v5 m c
theorem G2_v6 (c : Dev nD) : G2 m c (Proc.devRef .tc main_v6) = Cert.ReferenceIdeal.Read.val_main_v6 (F := Ideal) (EI m c) := by
  unfold G2; simp only [Gen.hostOps0_1]; after_results_simp; exact G1_v6 m c
theorem G2_v8 (c : Dev nD) : G2 m c (Proc.devRef .tc main_v8) = Cert.ReferenceIdeal.Read.val_main_v8 (F := Ideal) (EW m c) := by
  unfold G2; simp only [Gen.hostOps0_1]; after_results_simp; exact G1_v8 m c
theorem G2_arg3 (c : Dev nD) : G2 m c (Proc.devRef .tc main_arg3) = FW m c := by
  unfold G2; simp only [Gen.hostOps0_1]; after_results_simp; exact G1_arg3 m c
/-- The inlined `where` over any earlier buffers: the select of its three operands (the third a scalar, broadcast). -/
theorem where_result (G : Valuation τ sig (Elt Ideal)) (A : IVec S20000 1) (B : FVec Ideal S20000 .f32) (C : FVec Ideal S_ .f32)
    (h13 : G (Proc.devRef .tc main_v13) = A) (h14 : G (Proc.devRef .tc main_v14) = B) (hc : G (Proc.devRef .tc main_cst_2) = C) :
    StableHlo.after hostOps0_1 G (Proc.devRef .tc main_v15) = select A B (broadcastInDim S20000 ![] bcast_S_S20000 (id C)) := by
  simp only [Gen.hostOps0_1]
  after_results_simp
  rw [h13, h14, hc]
  rfl
theorem G2_v15 (c : Dev nD) : G2 m c (Proc.devRef .tc main_v15) = Cert.ReferenceIdeal.Read.val_main_v15 (F := Ideal) (EI m c) (EW m c) := by
  unfold G2
  rw [where_result (G1 m c) _ _ _ (G1_v13 m c) (G1_v14 m c) (G1_cst2 m c)]
  rfl

-- After the third stretch: the word zero, and the folded weights as a scatter-add of rows over the reference program's
-- source words, target words brought into range, and normalized weights.
theorem G3_c9 (c : Dev nD) : G3 m c (Proc.devRef .tc main_c_9) = constantI S_ 32 0#32 := by
  unfold G3; simp only [Gen.hostOps0_2]; after_results_simp

theorem G3_v45 (c : Dev nD) : G3 m c (Proc.devRef .tc main_v45)
    = Host.scatterAdd (F := Ideal) scatter_S20000x30_S660000x1_S660000x30_1_0_0_1
          (broadcastInDim S20000x30 ![] bcast_S_S20000x30 (constant (F := Ideal) S_ .f32 0x00000000#32))
          (broadcastInDim S660000x1 ![0] bcast_S660000_S660000x1_0 (Cert.ReferenceIdeal.Read.val_main_v5 (F := Ideal) (EI m c)))
          (mulf (Host.gather gather_S20000x30_S660000x1_S660000x30_1_0_n_n_0_1_130
                  (transpose S20000x30 [1, 0] (FW m c) transposes_S30x20000_S20000x30_1_0)
                  (broadcastInDim S660000x1 ![0] bcast_S660000_S660000x1_0 (Cert.ReferenceIdeal.Read.val_main_v28 (F := Ideal) (EI m c))))
                (broadcastInDim S660000x30 ![0, 1] bcast_S660000x1_S660000x30_0_1
                  (broadcastInDim S660000x1 ![0] bcast_S660000_S660000x1_0 (Cert.ReferenceIdeal.Read.val_main_v31 (F := Ideal) (EI m c) (EW m c))))) := by
  unfold G3; simp only [Gen.hostOps0_2]; after_results_simp
  rw [G2_v5, G2_v6, G2_v8, G2_v15, G2_arg3]
  rfl

/-- The last stretch over any earlier buffers: the folded weights padded with the converted word, then the change of
    float format. -/
theorem padW_result (G : Valuation τ sig (Elt Ideal)) (A : FVec Ideal S20000x30 .f32) (C : IVec S_ 32)
    (hA : G (Proc.devRef .tc main_v45) = A) (hC : G (Proc.devRef .tc main_c_9) = C) :
    StableHlo.after (List.flatten [hostOps0_3, hostOps0_4, hostOps0_5, hostOps0_6, hostOps0_7, hostOps0_8]) G (Proc.devRef .tc main_v47)
      = truncf .bf16 (pad S20480x128 ![0, 0] ![480, 98] ![0, 0] A (sitofp (F := Ideal) FTy.f32 C) pads_S20000x30_S20480x128_04800_0980 h_S_) bitsLt_bf16_f32 := by
  simp only [Gen.hostOps0_3, Gen.hostOps0_4, Gen.hostOps0_5, Gen.hostOps0_6, Gen.hostOps0_7, Gen.hostOps0_8, List.flatten_cons, List.flatten_nil, List.append_nil, List.cons_append, List.nil_append]
  after_results_simp
  rw [hA, hC]
  rfl

/-- The weights the region reads: the folded weights padded up to `[20480, 128]`, then the change of float format. -/
theorem w2pad_term (c : Dev nD) : w2pad m c
    = truncf .bf16 (pad S20480x128 ![0, 0] ![480, 98] ![0, 0]
        (Host.scatterAdd (F := Ideal) scatter_S20000x30_S660000x1_S660000x30_1_0_0_1
          (broadcastInDim S20000x30 ![] bcast_S_S20000x30 (constant (F := Ideal) S_ .f32 0x00000000#32))
          (broadcastInDim S660000x1 ![0] bcast_S660000_S660000x1_0 (Cert.ReferenceIdeal.Read.val_main_v5 (F := Ideal) (EI m c)))
          (mulf (Host.gather gather_S20000x30_S660000x1_S660000x30_1_0_n_n_0_1_130
                  (transpose S20000x30 [1, 0] (FW m c) transposes_S30x20000_S20000x30_1_0)
                  (broadcastInDim S660000x1 ![0] bcast_S660000_S660000x1_0 (Cert.ReferenceIdeal.Read.val_main_v28 (F := Ideal) (EI m c))))
                (broadcastInDim S660000x30 ![0, 1] bcast_S660000x1_S660000x30_0_1
                  (broadcastInDim S660000x1 ![0] bcast_S660000_S660000x1_0 (Cert.ReferenceIdeal.Read.val_main_v31 (F := Ideal) (EI m c) (EW m c))))))
        (sitofp (F := Ideal) FTy.f32 (constantI S_ 32 0#32)) pads_S20000x30_S20480x128_04800_0980 h_S_) bitsLt_bf16_f32 := by
  show V0 m c (Proc.devRef .tc main_v47) = _
  rw [V0_eq]
  exact padW_result (G3 m c) _ _ (G3_v45 m c) (G3_c9 m c)

end Stages

/-! ## The folded weights at an index -/

/-- The folded weights before padding, at `(s, j)`: the scatter-add starts from zeros and adds, over the arcs whose
    source word is `s`, the dense layer's weight at the arc's target node times the arc's normalized weight. -/
theorem w2_apply (c : Dev nD) (s : Fin 20000) (j : Fin 30) :
    Host.scatterAdd (F := Ideal) scatter_S20000x30_S660000x1_S660000x30_1_0_0_1
        (broadcastInDim S20000x30 ![] bcast_S_S20000x30 (constant (F := Ideal) S_ .f32 0x00000000#32))
        (broadcastInDim S660000x1 ![0] bcast_S660000_S660000x1_0 (Cert.ReferenceIdeal.Read.val_main_v5 (F := Ideal) (EI m c)))
        (mulf (Host.gather gather_S20000x30_S660000x1_S660000x30_1_0_n_n_0_1_130
                (transpose S20000x30 [1, 0] (FW m c) transposes_S30x20000_S20000x30_1_0)
                (broadcastInDim S660000x1 ![0] bcast_S660000_S660000x1_0 (Cert.ReferenceIdeal.Read.val_main_v28 (F := Ideal) (EI m c))))
              (broadcastInDim S660000x30 ![0, 1] bcast_S660000x1_S660000x30_0_1
                (broadcastInDim S660000x1 ![0] bcast_S660000_S660000x1_0 (Cert.ReferenceIdeal.Read.val_main_v31 (F := Ideal) (EI m c) (EW m c)))))
        (ix2 s j)
      = W2 (FW m c) (srcw (EI m c)) (dstw (EI m c)) (wn (srcw (EI m c)) (dstw (EI m c)) (wfv (EW m c))) s j := by
  -- the operand's element plus, over the arcs whose index word is `s`, the update's element
  rw [Cert.LibIndex.scatterAdd_row_apply_of _ rfl rfl rfl rfl]
  have hz : broadcastInDim S20000x30 ![] bcast_S_S20000x30 (constant (F := Ideal) S_ .f32 0x00000000#32) (ix2 s j) = (0 : EReal) :=
    Ideal.ofBits_zero_f32
  rw [hz, zero_add]
  unfold W2
  refine Finset.sum_congr rfl fun e _ => ?_
  -- the index word of arc `e` is its source word
  have hidx : broadcastInDim S660000x1 ![0] bcast_S660000_S660000x1_0 (Cert.ReferenceIdeal.Read.val_main_v5 (F := Ideal) (EI m c))
      (ix2 e (0 : Fin 1)) = srcw (EI m c) e := by
    rw [broadcastInDim_apply _ _ _ _ (ix1 e) (fun a => by match a with | ⟨0, _⟩ => rfl), v5_apply]
  rw [hidx]
  refine if_congr Iff.rfl ?_ rfl
  show FloatOps.mulf
      (Host.gather gather_S20000x30_S660000x1_S660000x30_1_0_n_n_0_1_130
        (transpose S20000x30 [1, 0] (FW m c) transposes_S30x20000_S20000x30_1_0)
        (broadcastInDim S660000x1 ![0] bcast_S660000_S660000x1_0 (Cert.ReferenceIdeal.Read.val_main_v28 (F := Ideal) (EI m c))) (ix2 e j))
      (broadcastInDim S660000x30 ![0, 1] bcast_S660000x1_S660000x30_0_1
        (broadcastInDim S660000x1 ![0] bcast_S660000_S660000x1_0 (Cert.ReferenceIdeal.Read.val_main_v31 (F := Ideal) (EI m c) (EW m c))) (ix2 e j)) = _
  -- the update at `(e, j)`: row `gix (dstw e)` of the transposed dense weights, times the normalized weight of `e`
  rw [Ideal.mulf_def, Cert.LibIndex.gather_row_apply_of (by decide) _ rfl rfl rfl rfl rfl rfl rfl]
  have hst : broadcastInDim S660000x1 ![0] bcast_S660000_S660000x1_0 (Cert.ReferenceIdeal.Read.val_main_v28 (F := Ideal) (EI m c))
      (ix2 e (0 : Fin 1)) = normw (dstw (EI m c) e) := by
    rw [broadcastInDim_apply _ _ _ _ (ix1 e) (fun a => by match a with | ⟨0, _⟩ => rfl), v28_apply]
  have hw : broadcastInDim S660000x30 ![0, 1] bcast_S660000x1_S660000x30_0_1
        (broadcastInDim S660000x1 ![0] bcast_S660000_S660000x1_0 (Cert.ReferenceIdeal.Read.val_main_v31 (F := Ideal) (EI m c) (EW m c))) (ix2 e j)
      = wn (srcw (EI m c)) (dstw (EI m c)) (wfv (EW m c)) e := by
    rw [broadcastInDim_apply _ _ _ _ (ix2 e (0 : Fin 1)) (fun a => by match a with | ⟨0, _⟩ => rfl | ⟨1, _⟩ => rfl),
      broadcastInDim_apply _ _ _ _ (ix1 e) (fun a => by match a with | ⟨0, _⟩ => rfl), v31_apply]
  rw [hw]
  refine congrArg (fun t : EReal => t * wn (srcw (EI m c)) (dstw (EI m c)) (wfv (EW m c)) e) ?_
  rw [transpose_apply _ _ _ _ (ix2 j (gix (dstw (EI m c) e)))]
  intro b
  match b with
  | ⟨0, _⟩ => exact congrArg (fun w : BitVec 32 => min w.toInt.toNat (20000 - 1)) hst.symm
  | ⟨1, _⟩ => rfl

/-! ## The three arrays at an index -/

/-- The padded features at `(a, n)`. -/
theorem xpad_apply (c : Dev nD) (a : Fin 128) (n : Fin 20480) :
    xpad m c (ix2 a n) = if h : n.val < 20000 then X m c (ix2 a (⟨n.val, h⟩ : Fin 20000)) else (0 : EReal) := by
  rw [xpad_term]
  show FloatOps.truncf .bf16 _ (pad S128x20480 ![0, 0] ![0, 480] ![0, 0] (X m c) (sitofp (F := Ideal) FTy.f32 (constantI S_ 32 0#32))
    pads_S128x20000_S128x20480_000_04800 h_S_ (ix2 a n)) = _
  rw [Ideal.truncf_def, pad2_apply, padv_eq]
  by_cases h : n.val < 20000
  · rw [dif_pos h, dif_pos ⟨a.isLt, h⟩]
  · rw [dif_neg h, dif_neg (fun hh => h hh.2)]

/-- The padded folded weights at `(n, j)`. -/
theorem w2pad_apply (c : Dev nD) (n : Fin 20480) (j : Fin 128) :
    w2pad m c (ix2 n j)
      = if h : n.val < 20000 ∧ j.val < 30 then
          W2 (FW m c) (srcw (EI m c)) (dstw (EI m c)) (wn (srcw (EI m c)) (dstw (EI m c)) (wfv (EW m c)))
            (⟨n.val, h.1⟩ : Fin 20000) (⟨j.val, h.2⟩ : Fin 30)
        else (0 : EReal) := by
  rw [w2pad_term]
  show FloatOps.truncf .bf16 _ (pad (s := S20000x30) S20480x128 ![0, 0] ![480, 98] ![0, 0] _ (sitofp (F := Ideal) FTy.f32 (constantI S_ 32 0#32))
    pads_S20000x30_S20480x128_04800_0980 h_S_ (ix2 n j)) = _
  rw [Ideal.truncf_def, pad2_apply, padv_eq]
  by_cases h : n.val < 20000 ∧ j.val < 30
  · rw [dif_pos h, dif_pos h]
    exact w2_apply m c ⟨n.val, h.1⟩ ⟨j.val, h.2⟩
  · rw [dif_neg h, dif_neg h]

/-- The padded bias row at `(0, j)`. -/
theorem bpad_apply (c : Dev nD) (j : Fin 128) :
    bpad m c (ix2 (0 : Fin 1) j) = if h : j.val < 30 then FB m c (ix1 (⟨j.val, h⟩ : Fin 30)) else (0 : EReal) := by
  rw [bpad_term, broadcastInDim_apply _ _ _ _ (ix1 j) (fun a => by match a with | ⟨0, _⟩ => rfl), pad1_apply, padv_eq]

end Cert.KernelIdeal.HostValue

end
-- ==== Proof.KerValue.lean ====
/-
  What the kernel program computes: the row-wise softmax of the logits written weights-first (`logitsKerArr`).

  After the region the host takes columns `0 … 29` of the result array and applies the softmax. At `(b, c)` with
  `c < 30` the result array holds `∑ n < 20480, xpad b n * w2pad n c + bpad c`; the padded features vanish from
  column 20000 on, so the sum is `∑ s < 20000, x b s * W2 s c`, and the padded bias at `c < 30` is the bias.
-/
import proofs.«404574_j14869176779094_2_alg».proof.Proof.KerRegion
import proofs.«404574_j14869176779094_2_alg».proof.Proof.KerHost
import Idealize.ShloMosaic.Lib.StableHlo.Run
import Idealize.ShloMosaic.Lib.Pipeline.Value
import Mathlib.Algebra.BigOperators.Fin

noncomputable section

open scoped BigOperators

namespace Cert.KernelIdeal.KerValue

open Idealize.ShloMosaic Idealize.ShloMosaic.TcCoe Idealize.ShloMosaic.ValueIdx Idealize.SL.Sem Idealize.ShloMosaic.StableHlo
open Cert.KernelIdeal Cert.KernelIdeal.Gen Cert.KernelIdeal.Arr Cert.KernelIdeal.RegionValue Cert.KernelIdeal.HostValue Cert.Diffuse

variable (m : (ℓ : Loc nD τ sig) → Buf (Elt Ideal) ℓ) (ρ : Dev nD → PrngReg)

/-- A sum over `n` indices of a function that vanishes from `a` on is the sum over the first `a`. -/
theorem sum_fin_of_zero_tail {M : Type*} [AddCommMonoid M] {a n : Nat} (h : a ≤ n) (f : Fin n → M)
    (hf : ∀ i : Fin n, a ≤ i.val → f i = 0) :
    ∑ i : Fin n, f i = ∑ s : Fin a, f ⟨s.val, lt_of_lt_of_le s.isLt h⟩ := by
  obtain ⟨b, rfl⟩ := Nat.exists_eq_add_of_le h
  rw [Fin.sum_univ_add]
  rw [Finset.sum_eq_zero (s := Finset.univ) (f := fun i : Fin b => f (Fin.natAdd a i))
    (fun i _ => hf _ (by simp [Fin.natAdd])), add_zero]
  rfl

/-- The logits as the kernel program leaves them, columns `0 … 29` of the region's result array. -/
def logitsOut (c : Dev nD) : FVec Ideal S128x30 .f32 :=
  extractStridedSlice S128x30 ![0, 0] (outArr m c) slices_S128x128_S128x30_0_0

/-- They are the logits written weights-first. -/
theorem logitsOut_eq (c : Dev nD) :
    logitsOut m c = logitsKerArr (X m c) (FW m c) (FB m c) (srcw (EI m c)) (dstw (EI m c))
      (wn (srcw (EI m c)) (dstw (EI m c)) (wfv (EW m c))) := by
  funext i
  obtain ⟨b, j, rfl⟩ : ∃ (b : Fin 128) (j : Fin 30), i = ix2 b j := ⟨i 0, i 1, eq_ix2 i⟩
  have hj : j.val < 128 := by have := j.isLt; omega
  have hi : logitsOut m c (ix2 b j) = outArr m c (ix2 b (⟨j.val, hj⟩ : Fin 128)) := by
    unfold logitsOut extractStridedSlice
    congr 1
    funext a
    apply Fin.ext
    match a with
    | ⟨0, _⟩ => show 0 + b.val = b.val; omega
    | ⟨1, _⟩ => show 0 + j.val = j.val; omega
  rw [hi]
  show (∑ n : Fin 20480, xpad m c (ix2 b n) * w2pad m c (ix2 n (⟨j.val, hj⟩ : Fin 128))) + bpad m c (ix2 (0 : Fin 1) (⟨j.val, hj⟩ : Fin 128))
    = (∑ s : Fin 20000, X m c (ix2 b s) * W2 (FW m c) (srcw (EI m c)) (dstw (EI m c)) (wn (srcw (EI m c)) (dstw (EI m c)) (wfv (EW m c))) s j)
      + FB m c (ix1 j)
  rw [bpad_apply, dif_pos j.isLt]
  refine congrArg₂ (· + ·) ?_ rfl
  have h20 : (20000 : Nat) ≤ 20480 := by norm_num
  refine (sum_fin_of_zero_tail h20
    (fun n : Fin 20480 => xpad m c (ix2 b n) * w2pad m c (ix2 n (⟨j.val, hj⟩ : Fin 128)))
    (fun n hn => by
      show xpad m c (ix2 b n) * _ = 0
      rw [xpad_apply, dif_neg (Nat.not_lt.mpr hn), zero_mul])).trans ?_
  refine Finset.sum_congr rfl fun s _ => ?_
  have hs : s.val < 20000 := s.isLt
  have hs' : s.val < 20480 := by omega
  show xpad m c (ix2 b (⟨s.val, hs'⟩ : Fin 20480)) * w2pad m c (ix2 (⟨s.val, hs'⟩ : Fin 20480) (⟨j.val, hj⟩ : Fin 128)) = _
  rw [xpad_apply, dif_pos hs, w2pad_apply, dif_pos ⟨hs, j.isLt⟩]

/-- The kernel program's result. -/
def result (c : Dev nD) : Buf (Elt Ideal) ((c : Thread nD τ).loc main_v64) :=
  softmaxTail (logitsOut m c)

set_option maxRecDepth 8192 in
set_option maxHeartbeats 4000000 in
/-- The host operations after the region leave it in the program's result. -/
theorem tail_eq (c : Dev nD) :
    Pipeline.afterTail₀ cfgs (dats m) 0 (V0 m) [hostOps1] c main_v64 = result m c := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.devRef .tc main_v52)
      = outArr m c :=
    (Pipeline.withArrays_arr spec0 launch0.win.arr_inj c _ _ 3).trans (region_out m c)
  rw [e]
  rfl

/-- The run, read: the result at the softmax of the weights-first logits, the arguments unchanged. -/
theorem run : θ_run defs (onTc (τ := τ) (main (F := Ideal))) ⟨m, fun _ => 0, ρ⟩ fun r => ∀ c : Dev nD,
      r.2.mem ((c.tc : Thread nD τ).loc main_v64) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v64 (Pipeline.mem_restRefs_of main_v64 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.Pre.lean ====
/-
  What the precondition says of the kernel program's arguments: every feature, arc weight, dense-layer weight and bias
  is a real number (its absolute value is below `+∞`), and every entry of the arc table is a node: `0 ≤ · < 20000`.
-/
import proofs.«404574_j14869176779094_2_alg».proof.Defs
import proofs.«404574_j14869176779094_2_alg».proof.Proof.KerArrays
import Idealize.ShloMosaic.Lib.ReduceAll
import Idealize.ShloMosaic.Lib.StableHlo.Predicate

noncomputable section

namespace Cert.KernelIdeal.PreFacts

open Idealize.ShloMosaic Idealize.ShloMosaic.TcCoe Idealize.SL.Sem
open Cert.KernelIdeal Cert.KernelIdeal.Arr

/-- The scalar shape has one index. -/
instance : Subsingleton (⟨0, ![]⟩ : Shape).Idx := ⟨fun _ _ => funext fun d => d.elim0⟩

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` denotes `+∞`. -/
theorem ofBits_inf : Ideal.ofBits .f32 0x7F800000#32 = ⊤ := by simp [Ideal.ofBits, Ideal.ieee]

/-- The conjunction over all entries of `|x| < +∞` is one: every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) hr h0 j = 1#1) (i : s.Idx) : ∃ r : ℝ, x i = (r : EReal) := by
  have hi := Host.reduce_andi_all _ _ hr h0 j e i
  have hc : Ideal.cmp .olt (max (x i) (-(x i))) (Ideal.ofBits .f32 0x7F800000#32) = 1#1 := hi
  rw [ofBits_inf] at hc
  refine real_of_abs_lt_top (x i) ?_
  simpa [Ideal.cmp, StableHlo.Predicate.ofBool_eq_one_iff] using hc

/-- The conjunction over all entries of `k ≤ t`, words read signed, is one: every entry is at least `k`. -/
theorem all_sge {s : Shape} {axes : List (Fin s.rank)} (t : IVec s 32) (k : BitVec 32)
    (hb : (⟨0, ![]⟩ : Shape).BroadcastsInDim s (![] : Fin 0 → Fin s.rank)) (hr : s.ReducesTo axes ⟨0, ![]⟩)
    (h0 : 0 < (⟨0, ![]⟩ : Shape).numel) (j : (⟨0, ![]⟩ : Shape).Idx)
    (e : Host.reduce IntOp.andi (cmpi .sge t (broadcastInDim s ![] hb (constantI ⟨0, ![]⟩ 32 k)))
      (constantI ⟨0, ![]⟩ 1 1#1) hr h0 j = 1#1) (i : s.Idx) : k.toInt ≤ (t i).toInt :=
  IntOp.cmpi_sge.1 (Host.reduce_andi_all _ _ hr h0 j e i)

/-- The conjunction over all entries of `t < k`, words read signed, is one: every entry is below `k`. -/
theorem all_slt {s : Shape} {axes : List (Fin s.rank)} (t : IVec s 32) (k : BitVec 32)
    (hb : (⟨0, ![]⟩ : Shape).BroadcastsInDim s (![] : Fin 0 → Fin s.rank)) (hr : s.ReducesTo axes ⟨0, ![]⟩)
    (h0 : 0 < (⟨0, ![]⟩ : Shape).numel) (j : (⟨0, ![]⟩ : Shape).Idx)
    (e : Host.reduce IntOp.andi (cmpi .slt t (broadcastInDim s ![] hb (constantI ⟨0, ![]⟩ 32 k)))
      (constantI ⟨0, ![]⟩ 1 1#1) hr h0 j = 1#1) (i : s.Idx) : (t i).toInt < k.toInt :=
  IntOp.cmpi_slt.1 (Host.reduce_andi_all _ _ hr h0 j e i)

theorem pre_facts [Cert.Pre_finite_inputs.Facts] (m : (ℓ : Loc nD τ sig) → Buf (Elt Ideal) ℓ)
    (h : Cert.Pre_KernelIdeal m) (c : Dev nD) :
    (∀ i, ∃ r : ℝ, X m c i = (r : EReal)) ∧ (∀ i, ∃ r : ℝ, EW m c i = (r : EReal))
      ∧ (∀ i, ∃ r : ℝ, FW m c i = (r : EReal)) ∧ (∀ i, ∃ r : ℝ, FB m c i = (r : EReal))
      ∧ (∀ i, 0 ≤ (EI m c i).toInt ∧ (EI m c i).toInt < 20000) := by
  have h0 := congrFun (h c) (fun a => a.elim0)
  dsimp only [Cert.Pre_finite_inputs.fn, Cert.Pre_finite_inputs.fn_part1, andi] at h0
  -- the predicate is a conjunction of six such conjunctions; taken apart from the outside in
  obtain ⟨h5, hlt⟩ := IntOp.andi_eq_one.1 h0
  obtain ⟨h4, hge⟩ := IntOp.andi_eq_one.1 h5
  obtain ⟨h3, hFB⟩ := IntOp.andi_eq_one.1 h4
  obtain ⟨h2, hFW⟩ := IntOp.andi_eq_one.1 h3
  obtain ⟨hX, hEW⟩ := IntOp.andi_eq_one.1 h2
  have z0 : (0#32 : BitVec 32).toInt = 0 := by decide
  have z1 : (20000#32 : BitVec 32).toInt = 20000 := by decide
  refine ⟨all_real _ _ _ _ _ hX, all_real _ _ _ _ _ hEW, all_real _ _ _ _ _ hFW, all_real _ _ _ _ _ hFB, fun i => ⟨?_, ?_⟩⟩
  · have := all_sge _ _ _ _ _ _ hge i
    rwa [z0] at this
  · have := all_slt _ _ _ _ _ _ hlt i
    rwa [z1] at this

end Cert.KernelIdeal.PreFacts

end
-- ==== Proof.lean ====
/-
  The diffusion classifier: `softmax (x · Âᵀ-diffused · fc_wᵀ + fc_b)` over a graph of 20000 nodes and 660000 weighted
  arcs (the input arcs and one self loop per node), computed two ways.

  The reference diffuses the 128 feature rows along the arcs first (`diffused b n = ∑ arcs e into n, x b (src e) · wn e`)
  and then applies the dense layer. The kernel program folds the graph into the dense layer's weights first
  (`W2 s c = ∑ arcs e out of s, fc_w c (dst e) · wn e`) and leaves to its kernel only the product `x · W2 + fc_b`, taken
  2048 columns at a time over a grid of ten points with an accumulator. Over the extended reals a change of float format is
  the identity and a sum does not depend on its order, so both are `∑ e, x b (src e) · wn e · fc_w c (dst e) + fc_b c` — when
  every input number is real (then so is every normalized weight `wn e`, and multiplication distributes over the sums) and
  every entry of the arc table is a node (a gather clamps a word that is no node while a scatter-add drops it, and the two
  programs gather and scatter at different ends of an arc). The softmax after the logits is the same function on both sides.

  The three frames and the reference's run are generated; written by hand: the two logits index by index (Spec), the shared
  part of the two programs read at an arc (Common), the reference's value (RefValue), the arrays the region reads
  (KerHost), the region's result (KerRegion), the kernel program's value (KerValue), what the precondition says (Pre) and
  the identity of the two logits (Algebra).
-/
import proofs.«404574_j14869176779094_2_alg».proof.Defs
import proofs.«404574_j14869176779094_2_alg».proof.Proof.Gen.Kernel
import proofs.«404574_j14869176779094_2_alg».proof.Proof.Gen.Kernel.Frame
import proofs.«404574_j14869176779094_2_alg».proof.Proof.Gen.KernelIdeal
import proofs.«404574_j14869176779094_2_alg».proof.Proof.Gen.KernelIdeal.Frame
import proofs.«404574_j14869176779094_2_alg».proof.Proof.Gen.ReferenceIdeal
import proofs.«404574_j14869176779094_2_alg».proof.Proof.Gen.ReferenceIdeal.Run
import proofs.«404574_j14869176779094_2_alg».proof.Proof.Gen.Pre_finite_inputs
import proofs.«404574_j14869176779094_2_alg».proof.Proof.Algebra
import proofs.«404574_j14869176779094_2_alg».proof.Proof.Common
import proofs.«404574_j14869176779094_2_alg».proof.Proof.RefValue
import proofs.«404574_j14869176779094_2_alg».proof.Proof.KerValue
import proofs.«404574_j14869176779094_2_alg».proof.Proof.Pre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the softmax of their logits; under the precondition the two logits are one array. -/
theorem algebraic : Cert.algebraic_KernelIdeal_ReferenceIdeal := by
  intro m ρ m' ρ' hpre hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  obtain ⟨hx, hew, hfw, -, hei⟩ := Cert.KernelIdeal.PreFacts.pre_facts m hpre c
  rw [Cert.ReferenceIdeal.RefValue.ref_value m' c, h0, h1, h2, h3, h4]
  show _ = Cert.Diffuse.softmaxTail (Cert.KernelIdeal.KerValue.logitsOut m c)
  rw [Cert.KernelIdeal.KerValue.logitsOut_eq]
  refine congrArg Cert.Diffuse.softmaxTail (Eq.symm ?_)
  exact Cert.Diffuse.logitsKerArr_eq_logitsRefArr _ _ _ _ _ _ hx hfw
    (Cert.Diffuse.wn_real _ _ hew)
    (fun e => Cert.Diffuse.gix_val _ (Cert.Diffuse.srcw_range _ hei e).1 (Cert.Diffuse.srcw_range _ hei e).2)
    (fun e => Cert.Diffuse.gix_val _ (Cert.Diffuse.dstw_range _ hei e).1 (Cert.Diffuse.dstw_range _ hei e).2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
